-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S65536 : Shape := ⟨1, ![65536]⟩
abbrev S1000x4x8x768 : Shape := ⟨4, ![1000, 4, 8, 768]⟩
abbrev S1000x4 : Shape := ⟨2, ![1000, 4]⟩
abbrev S4x16x768 : Shape := ⟨3, ![4, 16, 768]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S1000x4x8x768 : S_.BroadcastsInDim S1000x4x8x768 (![] : Fin 0 → Fin S1000x4x8x768.rank)
  reducesTo_S1000x4x8x768_S_d0_1_2_3 : S1000x4x8x768.ReducesTo [0, 1, 2, 3] S_
  bcast_S_S4x16x768 : S_.BroadcastsInDim S4x16x768 (![] : Fin 0 → Fin S4x16x768.rank)
  reducesTo_S4x16x768_S_d0_1_2 : S4x16x768.ReducesTo [0, 1, 2] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_arg2 : IVec S65536 32) (main_v13 : IVec S_ 1) (main_v15 : IVec S65536 1) (main_c_5 : IVec S_ 1) : IVec S_ 1 :=
  let main_v16 : IVec S_ 1 := (fun x v => Host.reduce IntOp.andi x v reducesTo_S65536_S_d0 h_S_) main_v15 main_c_5
  let main_v17 : IVec S_ 1 := andi main_v13 main_v16
  let main_c_6 : IVec S_ 32 := constantI S_ 32 1000#32
  let main_v18 : IVec S65536 32 := broadcastInDim S65536 ![] bcast_S_S65536 main_c_6
  let main_v19 : IVec S65536 1 := cmpi .slt main_arg1 main_v18
  let main_c_7 : IVec S_ 1 := constantI S_ 1 1#1
  let main_v20 : IVec S_ 1 := (fun x v => Host.reduce IntOp.andi x v reducesTo_S65536_S_d0 h_S_) main_v19 main_c_7
  let main_v21 : IVec S_ 1 := andi main_v17 main_v20
  let main_c_8 : IVec S_ 32 := constantI S_ 32 0#32
  let main_v22 : IVec S65536 32 := broadcastInDim S65536 ![] bcast_S_S65536 main_c_8
  let main_v23 : IVec S65536 1 := cmpi .sge main_arg2 main_v22
  let main_c_9 : IVec S_ 1 := constantI S_ 1 1#1
  let main_v24 : IVec S_ 1 := (fun x v => Host.reduce IntOp.andi x v reducesTo_S65536_S_d0 h_S_) main_v23 main_c_9
  let main_v25 : IVec S_ 1 := andi main_v21 main_v24
  let main_c_10 : IVec S_ 32 := constantI S_ 32 4#32
  let main_v26 : IVec S65536 32 := broadcastInDim S65536 ![] bcast_S_S65536 main_c_10
  let main_v27 : IVec S65536 1 := cmpi .slt main_arg2 main_v26
  let main_c_11 : IVec S_ 1 := constantI S_ 1 1#1
  let main_v28 : IVec S_ 1 := (fun x v => Host.reduce IntOp.andi x v reducesTo_S65536_S_d0 h_S_) main_v27 main_c_11
  let main_v29 : IVec S_ 1 := andi main_v25 main_v28
  main_v29

def fn {F : FTy → Type} [FloatOps F] (main_arg0 : FVec F S65536x768 .f32) (main_arg1 : IVec S65536 32) (main_arg2 : IVec S65536 32) (main_arg3 : FVec F S1000x4x8x768 .f32) (main_arg4 : IVec S1000x4 32) (main_arg5 : FVec F S4x16x768 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S1000x4x8x768 .f32 := Host.absf main_arg3
  let main_cst_0 : FVec F S_ .f32 := constant S_ .f32 0x7F800000#32
  let main_v5 : FVec F S1000x4x8x768 .f32 := broadcastInDim S1000x4x8x768 ![] bcast_S_S1000x4x8x768 main_cst_0
  let main_v6 : IVec S1000x4x8x768 1 := cmpf .olt main_v4 main_v5
  let main_c_1 : IVec S_ 1 := constantI S_ 1 1#1
  let main_v7 : IVec S_ 1 := (fun x v => Host.reduce IntOp.andi x v reducesTo_S1000x4x8x768_S_d0_1_2_3 h_S_) main_v6 main_c_1
  let main_v8 : IVec S_ 1 := andi main_v3 main_v7
  let main_v9 : FVec F S4x16x768 .f32 := Host.absf main_arg5
  let main_cst_2 : FVec F S_ .f32 := constant S_ .f32 0x7F800000#32
  let main_v10 : FVec F S4x16x768 .f32 := broadcastInDim S4x16x768 ![] bcast_S_S4x16x768 main_cst_2
  let main_v11 : IVec S4x16x768 1 := cmpf .olt main_v9 main_v10
  let main_c_3 : IVec S_ 1 := constantI S_ 1 1#1
  let main_v12 : IVec S_ 1 := (fun x v => Host.reduce IntOp.andi x v reducesTo_S4x16x768_S_d0_1_2 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg1 main_v14
  let main_c_5 : IVec S_ 1 := constantI S_ 1 1#1
  fn_part1 (F := F) main_arg1 main_arg2 main_v13 main_v15 main_c_5
-- ==== Kernel.lean ====
abbrev S65536x768 : Shape := ⟨2, ![65536, 768]⟩
abbrev S65536 : Shape := ⟨1, ![65536]⟩
abbrev S1000x4x8x768 : Shape := ⟨4, ![1000, 4, 8, 768]⟩
abbrev S1000x4 : Shape := ⟨2, ![1000, 4]⟩
abbrev S4x16x768 : Shape := ⟨3, ![4, 16, 768]⟩
abbrev S1000x4x768 : Shape := ⟨3, ![1000, 4, 768]⟩
abbrev S40x4x8x768 : Shape := ⟨4, ![40, 4, 8, 768]⟩
abbrev S40x4 : Shape := ⟨2, ![40, 4]⟩
abbrev S40x4x768 : Shape := ⟨3, ![40, 4, 768]⟩
abbrev S40x4x1 : Shape := ⟨3, ![40, 4, 1]⟩
abbrev S_ : Shape := ⟨0, ![]⟩
abbrev S4x768 : Shape := ⟨2, ![4, 768]⟩
abbrev S4000x768 : Shape := ⟨2, ![4000, 768]⟩
abbrev S65536x1 : Shape := ⟨2, ![65536, 1]⟩
abbrev S1 : Shape := ⟨1, ![1]⟩
abbrev S1x1 : Shape := ⟨2, ![1, 1]⟩
abbrev S1024x768 : Shape := ⟨2, ![1024, 768]⟩

abbrev nBuf : Space → Nat
  | .hbm => 64
  | .vmem => 14
  | .smem => 0
  | _ => 0

abbrev bufTy : (tb : Table) → Fin (tcTables nBuf tb) → BufTy
  | .hbm, ⟨0, _⟩ => ⟨S65536x768, .f32⟩
  | .hbm, ⟨1, _⟩ => ⟨S65536, .i32⟩
  | .hbm, ⟨2, _⟩ => ⟨S65536, .i32⟩
  | .hbm, ⟨3, _⟩ => ⟨S1000x4x8x768, .f32⟩
  | .hbm, ⟨4, _⟩ => ⟨S1000x4, .i32⟩
  | .hbm, ⟨5, _⟩ => ⟨S4x16x768, .f32⟩
  | .hbm, ⟨6, _⟩ => ⟨S1000x4x768, .f32⟩
  | .hbm, ⟨7, _⟩ => ⟨S_, .f32⟩
  | .hbm, ⟨8, _⟩ => ⟨S4x768, .f32⟩
  | .hbm, ⟨9, _⟩ => ⟨S_, .f32⟩
  | .hbm, ⟨10, _⟩ => ⟨S4x768, .f32⟩
  | .hbm, ⟨11, _⟩ => ⟨S4x768, .f32⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S4000x768, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S1, .i32⟩
  | .hbm, ⟨26, _⟩ => ⟨S_, .i32⟩
  | .hbm, ⟨27, _⟩ => ⟨S65536x1, .i32⟩
  | .hbm, ⟨28, _⟩ => ⟨S65536x1, .i1⟩
  | .hbm, ⟨29, _⟩ => ⟨S1x1, .i32⟩
  | .hbm, ⟨30, _⟩ => ⟨S65536x1, .i32⟩
  | .hbm, ⟨31, _⟩ => ⟨S65536x1, .i1⟩
  | .hbm, ⟨32, _⟩ => ⟨S65536x1, .i1⟩
  | .hbm, ⟨33, _⟩ => ⟨S_, .i1⟩
  | .hbm, ⟨34, _⟩ => ⟨S65536, .i1⟩
  | .hbm, ⟨35, _⟩ => ⟨S65536x768, .f32⟩
  | .hbm, ⟨36, _⟩ => ⟨S65536x768, .i1⟩
  | .hbm, ⟨37, _⟩ => ⟨S_, .f32⟩
  | .hbm, ⟨38, _⟩ => ⟨S65536x768, .f32⟩
  | .hbm, ⟨39, _⟩ => ⟨S65536x768, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S1, .i32⟩
  | .hbm, ⟨49, _⟩ => ⟨S_, .i32⟩
  | .hbm, ⟨50, _⟩ => ⟨S65536x1, .i32⟩
  | .hbm, ⟨51, _⟩ => ⟨S65536x1, .i1⟩
  | .hbm, ⟨52, _⟩ => ⟨S1x1, .i32⟩
  | .hbm, ⟨53, _⟩ => ⟨S65536x1, .i32⟩
  | .hbm, ⟨54, _⟩ => ⟨S65536x1, .i1⟩
  | .hbm, ⟨55, _⟩ => ⟨S65536x1, .i1⟩
  | .hbm, ⟨56, _⟩ => ⟨S_, .i1⟩
  | .hbm, ⟨57, _⟩ => ⟨S65536, .i1⟩
  | .hbm, ⟨58, _⟩ => ⟨S65536x768, .f32⟩
  | .hbm, ⟨59, _⟩ => ⟨S65536x768, .i1⟩
  | .hbm, ⟨60, _⟩ => ⟨S_, .f32⟩
  | .hbm, ⟨61, _⟩ => ⟨S65536x768, .f32⟩
  | .hbm, ⟨62, _⟩ => ⟨S65536x768, .f32⟩
  | .hbm, ⟨63, _⟩ => ⟨S65536x768, .f32⟩
  | .local _ .vmem, ⟨0, _⟩ => ⟨S40x4x8x768, .f32⟩
  | .local _ .vmem, ⟨1, _⟩ => ⟨S40x4x8x768, .f32⟩
  | .local _ .vmem, ⟨2, _⟩ => ⟨S40x4, .i32⟩
  | .local _ .vmem, ⟨3, _⟩ => ⟨S40x4, .i32⟩
  | .local _ .vmem, ⟨4, _⟩ => ⟨S40x4x768, .f32⟩
  | .local _ .vmem, ⟨5, _⟩ => ⟨S40x4x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1024x768, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v8 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v9 : Ref sig .tc := ⟨.hbm, 62, rfl⟩
abbrev main_v10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40x4x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S40x4_S40x4_0_0 : ∀ a, (![0, 0] : Fin 2 → Nat) a + S40x4.size a ≤ S40x4.size a
  h_S40x4 : 0 < S40x4.numel
  inb_S40x4x8x768_S40x4x8x768_0_0_0_0 : ∀ a, (![0, 0, 0, 0] : Fin 4 → Nat) a + S40x4x8x768.size a ≤ S40x4x8x768.size a
  h_S40x4x8x768 : 0 < S40x4x8x768.numel
  reduces_S40x4x8x768_S40x4x768 : S40x4x8x768.Reduces [2] S40x4x768
  shapeCasts_S40x4_S40x4x1 : S40x4.ShapeCasts S40x4x1
  broadcasts_S40x4x1_S40x4x768 : S40x4x1.Broadcasts S40x4x768
  inb_S40x4x768_S40x4x768_0_0_0 : ∀ a, (![0, 0, 0] : Fin 3 → Nat) a + S40x4x768.size a ≤ S40x4x768.size a
  h_S40x4x768 : 0 < S40x4x768.numel
  reducesTo_S4x16x768_S4x768_d1 : S4x16x768.ReducesTo [1] S4x768
  h_S_ : 0 < S_.numel
  bcast_S_S4x768 : S_.BroadcastsInDim S4x768 (![] : Fin 0 → Fin S4x768.rank)
  bcast_S_S65536 : S_.BroadcastsInDim S65536 (![] : Fin 0 → Fin S65536.rank)
  shapeCasts_S1000x4x768_S4000x768 : S1000x4x768.ShapeCasts S4000x768
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  bcast_S65536_S65536x768_0 : S65536.BroadcastsInDim S65536x768 (![0] : Fin 1 → Fin S65536x768.rank)
  bcast_S_S65536x768 : S_.BroadcastsInDim S65536x768 (![] : Fin 0 → Fin S65536x768.rank)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  gather_S4000x768_S65536x1_S65536x768_1_0_n_n_0_1_1768_wf : GatherDims.WF S4000x768 S65536x1 S65536x768 [1] [0] [] [0] [] 1 ![1, 768]
  gather_S4x768_S65536x1_S65536x768_1_0_n_n_0_1_1768_wf : GatherDims.WF S4x768 S65536x1 S65536x768 [1] [0] [] [0] [] 1 ![1, 768]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x4x8x768.size a ≤ S1000x4x8x768.size a
  hwx0_0 : ∀ i : grid0.Coords, EltTy.bits .f32 = 32 ∨ (Rect.block (s := S1000x4x8x768) S40x4x8x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x4.size a ≤ S1000x4.size a
  hwx0_1 : ∀ i : grid0.Coords, EltTy.bits .i32 = 32 ∨ (Rect.block (s := S1000x4) S40x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x4x768.size a ≤ S1000x4x768.size a
  hwx0_2 : ∀ i : grid0.Coords, EltTy.bits .f32 = 32 ∨ (Rect.block (s := S1000x4x768) S40x4x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S65536x768.size a
  hwx1_0 : ∀ i : grid1.Coords, EltTy.bits .f32 = 32 ∨ (Rect.block (s := S65536x768) S1024x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S65536x768.size a
  hwx1_1 : ∀ i : grid1.Coords, EltTy.bits .f32 = 32 ∨ (Rect.block (s := S65536x768) S1024x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x768.size a ≤ S65536x768.size a
  hwx1_2 : ∀ i : grid1.Coords, EltTy.bits .f32 = 32 ∨ (Rect.block (s := S65536x768) S1024x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x768.size a ≤ S65536x768.size a
  hwx1_3 : ∀ i : grid1.Coords, EltTy.bits .f32 = 32 ∨ (Rect.block (s := S65536x768) S1024x768.size (cc1_transform_3 i) (hinb1_3 i)).WholeWords (EltTy.packing .f32)

variable [Facts₀]

def gather_S4000x768_S65536x1_S65536x768_1_0_n_n_0_1_1768 : GatherDims S4000x768 S65536x1 S65536x768 where
  offsetDims := [1]
  collapsedSliceDims := [0]
  operandBatchingDims := []
  startIndicesBatchingDims := []
  startIndexMap := [0]
  indexVectorDim := 1
  sliceSizes := ![1, 768]
  wf := gather_S4000x768_S65536x1_S65536x768_1_0_n_n_0_1_1768_wf
def gather_S4x768_S65536x1_S65536x768_1_0_n_n_0_1_1768 : GatherDims S4x768 S65536x1 S65536x768 where
  offsetDims := [1]
  collapsedSliceDims := [0]
  operandBatchingDims := []
  startIndicesBatchingDims := []
  startIndexMap := [0]
  indexVectorDim := 1
  sliceSizes := ![1, 768]
  wf := gather_S4x768_S65536x1_S65536x768_1_0_n_n_0_1_1768_wf

abbrev win0_0 : Pipeline.Window sig grid0 :=
  Pipeline.Window.ofSpec (Memref.whole main_arg3) S40x4x8x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S40x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S40x4x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x768 : Shape := ⟨2, ![65536, 768]⟩
abbrev S65536 : Shape := ⟨1, ![65536]⟩
abbrev S1000x4x8x768 : Shape := ⟨4, ![1000, 4, 8, 768]⟩
abbrev S1000x4 : Shape := ⟨2, ![1000, 4]⟩
abbrev S4x16x768 : Shape := ⟨3, ![4, 16, 768]⟩
abbrev S_ : Shape := ⟨0, ![]⟩
abbrev S1000x4x768 : Shape := ⟨3, ![1000, 4, 768]⟩
abbrev S1000x4x1 : Shape := ⟨3, ![1000, 4, 1]⟩
abbrev S65536x1 : Shape := ⟨2, ![65536, 1]⟩
abbrev S65536x2 : Shape := ⟨2, ![65536, 2]⟩
abbrev S4x768 : Shape := ⟨2, ![4, 768]⟩

abbrev nBuf : Space → Nat
  | .hbm => 52
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536, .i32⟩
  | .hbm, ⟨2, _⟩ => ⟨S65536, .i32⟩
  | .hbm, ⟨3, _⟩ => ⟨S1000x4x8x768, .f32⟩
  | .hbm, ⟨4, _⟩ => ⟨S1000x4, .i32⟩
  | .hbm, ⟨5, _⟩ => ⟨S4x16x768, .f32⟩
  | .hbm, ⟨6, _⟩ => ⟨S_, .f32⟩
  | .hbm, ⟨7, _⟩ => ⟨S1000x4x768, .f32⟩
  | .hbm, ⟨8, _⟩ => ⟨S_, .i32⟩
  | .hbm, ⟨9, _⟩ => ⟨S1000x4, .i32⟩
  | .hbm, ⟨10, _⟩ => ⟨S1000x4, .i32⟩
  | .hbm, ⟨11, _⟩ => ⟨S1000x4, .f32⟩
  | .hbm, ⟨12, _⟩ => ⟨S1000x4x1, .f32⟩
  | .hbm, ⟨13, _⟩ => ⟨S1000x4x768, .f32⟩
  | .hbm, ⟨14, _⟩ => ⟨S1000x4x768, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x1, .i32⟩
  | .hbm, ⟨31, _⟩ => ⟨S65536x2, .i32⟩
  | .hbm, ⟨32, _⟩ => ⟨S65536x768, .f32⟩
  | .hbm, ⟨33, _⟩ => ⟨S_, .f32⟩
  | .hbm, ⟨34, _⟩ => ⟨S4x768, .f32⟩
  | .hbm, ⟨35, _⟩ => ⟨S_, .f32⟩
  | .hbm, ⟨36, _⟩ => ⟨S4x768, .f32⟩
  | .hbm, ⟨37, _⟩ => ⟨S4x768, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536x768, .f32⟩
  | .hbm, ⟨47, _⟩ => ⟨S65536x768, .f32⟩
  | .hbm, ⟨48, _⟩ => ⟨S_, .f32⟩
  | .hbm, ⟨49, _⟩ => ⟨S65536x768, .f32⟩
  | .hbm, ⟨50, _⟩ => ⟨S65536x768, .f32⟩
  | .hbm, ⟨51, _⟩ => ⟨S65536x768, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  reducesTo_S1000x4x8x768_S1000x4x768_d2 : S1000x4x8x768.ReducesTo [2] S1000x4x768
  h_S_ : 0 < S_.numel
  bcast_S_S1000x4 : S_.BroadcastsInDim S1000x4 (![] : Fin 0 → Fin S1000x4.rank)
  bcast_S1000x4_S1000x4x1_0_1 : S1000x4.BroadcastsInDim S1000x4x1 (![0, 1] : Fin 2 → Fin S1000x4x1.rank)
  bcast_S1000x4x1_S1000x4x768_0_1_2 : S1000x4x1.BroadcastsInDim S1000x4x768 (![0, 1, 2] : Fin 3 → Fin S1000x4x768.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  reducesTo_S4x16x768_S4x768_d1 : S4x16x768.ReducesTo [1] S4x768
  bcast_S_S4x768 : S_.BroadcastsInDim S4x768 (![] : Fin 0 → Fin S4x768.rank)
  bcast_S_S65536x768 : S_.BroadcastsInDim S65536x768 (![] : Fin 0 → Fin S65536x768.rank)
  gather_S1000x4x768_S65536x2_S65536x768_1_01_n_n_01_1_11768_wf : GatherDims.WF S1000x4x768 S65536x2 S65536x768 [1] [0, 1] [] [0, 1] [] 1 ![1, 1, 768]
  gather_S4x768_S65536x1_S65536x768_1_0_n_n_0_1_1768_wf : GatherDims.WF S4x768 S65536x1 S65536x768 [1] [0] [] [0] [] 1 ![1, 768]

variable [Facts₀]

def gather_S1000x4x768_S65536x2_S65536x768_1_01_n_n_01_1_11768 : GatherDims S1000x4x768 S65536x2 S65536x768 where
  offsetDims := [1]
  collapsedSliceDims := [0, 1]
  operandBatchingDims := []
  startIndicesBatchingDims := []
  startIndexMap := [0, 1]
  indexVectorDim := 1
  sliceSizes := ![1, 1, 768]
  wf := gather_S1000x4x768_S65536x2_S65536x768_1_01_n_n_01_1_11768_wf
def gather_S4x768_S65536x1_S65536x768_1_0_n_n_0_1_1768 : GatherDims S4x768 S65536x1 S65536x768 where
  offsetDims := [1]
  collapsedSliceDims := [0]
  operandBatchingDims := []
  startIndicesBatchingDims := []
  startIndexMap := [0]
  indexVectorDim := 1
  sliceSizes := ![1, 768]
  wf := gather_S4x768_S65536x1_S65536x768_1_0_n_n_0_1_1768_wf

class Facts : Prop extends Facts₀ where

variable [Facts]
-- ==== Proof.Words.lean ====
/-
  Small non-negative 32-bit words: a class word below 1000 and a stage word below 4 are not negative, jnp's wrap of a
  negative index leaves them alone, the gather's clamp does nothing to them, and the flat row `4 · class + stage` is
  computed without wrapping and lies below 4000.
-/
import Idealize.ShloMosaic.Lib.StableHlo.Predicate
import Idealize.ShloMosaic.Lib.ValueIdx

namespace Cert.Words

open Idealize.ShloMosaic Idealize.ShloMosaic.ValueIdx Idealize.ShloMosaic.StableHlo.Predicate

/-- A word below 2³¹ is not negative: the signed test against zero fails. -/
theorem slt_zero_of_small {w : BitVec 32} (h : w.toNat < 2 ^ 31) : IntOp.cmpi .slt w 0#32 = 0#1 := by
  refine eq_zero_of_ne_one fun h1 => ?_
  have := (slt_iff_toNat h (by decide)).mp h1
  simp at this

/-- The signed test "at least zero" holds of a word below 2³¹. -/
theorem sge_zero_of_small {w : BitVec 32} (h : w.toNat < 2 ^ 31) : IntOp.cmpi .sge w 0#32 = 1#1 :=
  (sge_iff_toNat h (by decide)).mpr (by simp)

/-- The signed test "at most `k`" holds of a word whose value is at most `k`, both below 2³¹. -/
theorem sle_of_le {w : BitVec 32} (k : Nat) (hk : k < 2 ^ 31) (h : w.toNat ≤ k) :
    IntOp.cmpi .sle w (BitVec.ofNat 32 k) = 1#1 :=
  (sle_iff_toNat (by omega) (by simp [BitVec.toNat_ofNat]; omega)).mpr (by simp [BitVec.toNat_ofNat]; omega)

/-- The wrap of a negative index — add the extent when the word is negative — leaves a word below 2³¹ alone. -/
theorem wrap_of_small {w n : BitVec 32} (h : w.toNat < 2 ^ 31) :
    Scalar.select (IntOp.cmpi .slt w 0#32) (IntOp.addi w n) w = w := by
  rw [slt_zero_of_small h, select_zero]

/-- A word below 2³¹ read as a signed integer is its value. -/
theorem toInt_toNat_of_small {w : BitVec 32} (h : w.toNat < 2 ^ 31) : w.toInt.toNat = w.toNat := by
  rw [toInt_eq_toNat_of_lt h, Int.toNat_natCast]

/-- The clamp into `[0, n − 1]` does nothing to a word below `n`. -/
theorem clamp_of_lt {w : BitVec 32} (n : Nat) (hn : n ≤ 2 ^ 31) (h : w.toNat < n) :
    min w.toInt.toNat (n - 1) = w.toNat := by
  rw [toInt_toNat_of_small (by omega)]; omega

/-- The flat row of class `c` and stage `s`: four times the class plus the stage, with no wrap. -/
theorem flat_toNat {c s : BitVec 32} (hc : c.toNat < 1000) (hs : s.toNat < 4) :
    (IntOp.addi (IntOp.muli c 4#32) s).toNat = 4 * c.toNat + s.toNat := by
  unfold IntOp.addi IntOp.muli
  rw [BitVec.toNat_add, BitVec.toNat_mul]
  simp only [BitVec.toNat_ofNat]
  omega

end Cert.Words
-- ==== Proof.LibRowGather.lean ====
/-
  A `stablehlo.gather` that picks whole rows, read at an index.

  `rowDims`: operand `[N, D]`, start indices `[R, 1]`, result `[R, D]` — what `jnp.take(x, idx, axis=0)` and `x[idx]`
  lower to for a table of rows. Result element `(b, e)` is the operand's at row `idx[b, 0]`, read as a signed integer and
  clamped into `[0, N − 1]`, column `e`.

  `pairDims`: operand `[A, B, D]`, start indices `[R, 2]`, result `[R, D]` — what `x[i, j]` with two index arrays lowers
  to. Result element `(b, e)` is the operand's at `(idx[b, 0], idx[b, 1], e)`, each start component read signed and
  clamped into its own axis.
-/
import Idealize.ShloMosaic.Lib.ValueIdx

namespace Idealize.ShloMosaic.RowGather

open Idealize.ShloMosaic Idealize.ShloMosaic.ValueIdx

variable {α : Type}

/-! ## One start component: a row of a table -/

/-- The dimension numbers of a row gather: the one start component names the row axis, which is collapsed; the column
    axis is the one offset axis, taken whole. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Row
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (b : Fin R) (e : Fin D)

/-- On the row axis the operand index is the start component, clamped. -/
theorem row_axis0 :
    (rowDims N D R wf).start (ix2 b e) idx (0 : Fin 2) + (rowDims N D R wf).batchCoord (ix2 b e) (0 : Fin 2)
      + (rowDims N D R wf).offCoord (ix2 b e) (0 : Fin 2) = min (idx (ix2 b 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 b e) ⟨List.idxOf (0 : Fin 2) (rowDims N D R wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

/-- On the column axis the operand index is the result's column. -/
theorem row_axis1 :
    (rowDims N D R wf).start (ix2 b e) idx (1 : Fin 2) + (rowDims N D R wf).batchCoord (ix2 b e) (1 : Fin 2)
      + (rowDims N D R wf).offCoord (ix2 b e) (1 : Fin 2) = e.val := by
  rw [GatherDims.batchCoord_eq_zero _ _ _ List.not_mem_nil]
  have hs : (rowDims N D R wf).start (ix2 b e) idx (1 : Fin 2) = 0 := by
    unfold GatherDims.start
    rw [dif_neg (by show ¬ (1 : Fin 2) ∈ [(0 : Fin 2)]; decide)]
  rw [hs]
  simp only [Nat.zero_add, Nat.add_zero]
  rfl

end Row

/-- The row gather at `(b, e)`: row `idx[b, 0]` clamped into the table, column `e`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (b : Fin R) (e : Fin D) :
    Host.gather (rowDims N D R wf) x idx (ix2 b e)
      = x (ix2 ⟨min (idx (ix2 b 0)).toInt.toNat (N - 1), by omega⟩ e) := by
  unfold Host.gather
  congr 1
  funext a
  refine Fin.ext ?_
  match a with
  | ⟨0, _⟩ => exact row_axis0 wf idx b e
  | ⟨1, _⟩ => exact row_axis1 wf idx b e

/-- The same, for any row `r` that IS the clamped start component (no proof term inside the index). -/
theorem gather_row_eq {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (b : Fin R) (e : Fin D) (r : Fin N)
    (hr : r.val = min (idx (ix2 b 0)).toInt.toNat (N - 1)) :
    Host.gather (rowDims N D R wf) x idx (ix2 b e) = x (ix2 r e) := by
  rw [gather_row_apply hN wf x idx b e]
  exact congrArg (fun q => x (ix2 q e)) (Fin.ext hr.symm)

/-! ## Two start components: an entry of a table of rows -/

/-- The dimension numbers of `x[i, j]` over an operand `[A, B, D]`: the two start components name the first two axes,
    both collapsed; the last axis is the one offset axis, taken whole. -/
abbrev pairDims (A B D R : Nat)
    (wf : GatherDims.WF ⟨3, ![A, B, D]⟩ ⟨2, ![R, 2]⟩ ⟨2, ![R, D]⟩ [1] [0, 1] [] [0, 1] [] 1 ![1, 1, D]) :
    GatherDims ⟨3, ![A, B, D]⟩ ⟨2, ![R, 2]⟩ ⟨2, ![R, D]⟩ where
  offsetDims := [1]
  collapsedSliceDims := [0, 1]
  operandBatchingDims := []
  startIndicesBatchingDims := []
  startIndexMap := [0, 1]
  indexVectorDim := 1
  sliceSizes := ![1, 1, D]
  wf := wf

section Pair
variable {A B D R w : Nat}
  (wf : GatherDims.WF ⟨3, ![A, B, D]⟩ ⟨2, ![R, 2]⟩ ⟨2, ![R, D]⟩ [1] [0, 1] [] [0, 1] [] 1 ![1, 1, D])
  (idx : IVec ⟨2, ![R, 2]⟩ w) (b : Fin R) (e : Fin D)

theorem pair_axis0 :
    (pairDims A B D R wf).start (ix2 b e) idx (0 : Fin 3) + (pairDims A B D R wf).batchCoord (ix2 b e) (0 : Fin 3)
      + (pairDims A B D R wf).offCoord (ix2 b e) (0 : Fin 3) = min (idx (ix2 b 0)).toInt.toNat (A - 1) := by
  rw [GatherDims.batchCoord_eq_zero _ _ _ List.not_mem_nil,
    GatherDims.offCoord_eq_zero _ _ _ (fun h => ((GatherDims.mem_sKept _ _).mp h).1
      (by show (0 : Fin 3) ∈ [(0 : Fin 3), 1]; decide))]
  simp only [Nat.add_zero]
  unfold GatherDims.start
  rw [dif_pos (by show (0 : Fin 3) ∈ [(0 : Fin 3), 1]; decide)]
  have hsi : (pairDims A B D R wf).siIdx (ix2 b e) ⟨List.idxOf (0 : Fin 3) (pairDims A B D R wf).startIndexMap,
      List.idxOf_lt_length_iff.2 (by show (0 : Fin 3) ∈ [(0 : Fin 3), 1]; decide)⟩ = ix2 b 0 := by
    funext c; refine Fin.ext ?_
    match c with
    | ⟨0, _⟩ => rfl
    | ⟨1, _⟩ => rfl
  rw [hsi]
  rfl

theorem pair_axis1 :
    (pairDims A B D R wf).start (ix2 b e) idx (1 : Fin 3) + (pairDims A B D R wf).batchCoord (ix2 b e) (1 : Fin 3)
      + (pairDims A B D R wf).offCoord (ix2 b e) (1 : Fin 3) = min (idx (ix2 b 1)).toInt.toNat (B - 1) := by
  rw [GatherDims.batchCoord_eq_zero _ _ _ List.not_mem_nil,
    GatherDims.offCoord_eq_zero _ _ _ (fun h => ((GatherDims.mem_sKept _ _).mp h).1
      (by show (1 : Fin 3) ∈ [(0 : Fin 3), 1]; decide))]
  simp only [Nat.add_zero]
  unfold GatherDims.start
  rw [dif_pos (by show (1 : Fin 3) ∈ [(0 : Fin 3), 1]; decide)]
  have hsi : (pairDims A B D R wf).siIdx (ix2 b e) ⟨List.idxOf (1 : Fin 3) (pairDims A B D R wf).startIndexMap,
      List.idxOf_lt_length_iff.2 (by show (1 : Fin 3) ∈ [(0 : Fin 3), 1]; decide)⟩ = ix2 b 1 := by
    funext c; refine Fin.ext ?_
    match c with
    | ⟨0, _⟩ => rfl
    | ⟨1, _⟩ => rfl
  rw [hsi]
  rfl

theorem pair_axis2 :
    (pairDims A B D R wf).start (ix2 b e) idx (2 : Fin 3) + (pairDims A B D R wf).batchCoord (ix2 b e) (2 : Fin 3)
      + (pairDims A B D R wf).offCoord (ix2 b e) (2 : Fin 3) = e.val := by
  rw [GatherDims.batchCoord_eq_zero _ _ _ List.not_mem_nil]
  have hs : (pairDims A B D R wf).start (ix2 b e) idx (2 : Fin 3) = 0 := by
    unfold GatherDims.start
    rw [dif_neg (by show ¬ (2 : Fin 3) ∈ [(0 : Fin 3), 1]; decide)]
  rw [hs]
  simp only [Nat.zero_add, Nat.add_zero]
  rfl

end Pair

/-- The two-component gather at `(b, e)`: entry `(idx[b, 0], idx[b, 1])`, each clamped into its axis, column `e`. -/
theorem gather_pair_apply {A B D R w : Nat} (hA : 0 < A) (hB : 0 < B)
    (wf : GatherDims.WF ⟨3, ![A, B, D]⟩ ⟨2, ![R, 2]⟩ ⟨2, ![R, D]⟩ [1] [0, 1] [] [0, 1] [] 1 ![1, 1, D])
    (x : (⟨3, ![A, B, D]⟩ : Shape).Idx → α) (idx : IVec ⟨2, ![R, 2]⟩ w) (b : Fin R) (e : Fin D) :
    Host.gather (pairDims A B D R wf) x idx (ix2 b e)
      = x (ix3 ⟨min (idx (ix2 b 0)).toInt.toNat (A - 1), by omega⟩
               ⟨min (idx (ix2 b 1)).toInt.toNat (B - 1), by omega⟩ e) := by
  unfold Host.gather
  congr 1
  funext a
  refine Fin.ext ?_
  match a with
  | ⟨0, _⟩ => exact pair_axis0 wf idx b e
  | ⟨1, _⟩ => exact pair_axis1 wf idx b e
  | ⟨2, _⟩ => exact pair_axis2 wf idx b e

/-- The same, for any pair `(r₀, r₁)` that IS the pair of clamped start components. -/
theorem gather_pair_eq {A B D R w : Nat} (hA : 0 < A) (hB : 0 < B)
    (wf : GatherDims.WF ⟨3, ![A, B, D]⟩ ⟨2, ![R, 2]⟩ ⟨2, ![R, D]⟩ [1] [0, 1] [] [0, 1] [] 1 ![1, 1, D])
    (x : (⟨3, ![A, B, D]⟩ : Shape).Idx → α) (idx : IVec ⟨2, ![R, 2]⟩ w) (b : Fin R) (e : Fin D) (r₀ : Fin A) (r₁ : Fin B)
    (h₀ : r₀.val = min (idx (ix2 b 0)).toInt.toNat (A - 1)) (h₁ : r₁.val = min (idx (ix2 b 1)).toInt.toNat (B - 1)) :
    Host.gather (pairDims A B D R wf) x idx (ix2 b e) = x (ix3 r₀ r₁ e) := by
  rw [gather_pair_apply hA hB wf x idx b e]
  have e₀ : (⟨min (idx (ix2 b 0)).toInt.toNat (A - 1), by omega⟩ : Fin A) = r₀ := Fin.ext h₀.symm
  have e₁ : (⟨min (idx (ix2 b 1)).toInt.toNat (B - 1), by omega⟩ : Fin B) = r₁ := Fin.ext h₁.symm
  rw [e₀, e₁]

end Idealize.ShloMosaic.RowGather
-- ==== Proof.TakeRows.lean ====
/-
  `jnp.take(table, idx, axis=0)` in its default mode, as the kernel's host program spells it, read at one element.

  The program wraps a negative index word (adds the extent), lays the words out as a column, tests each against
  `0 ≤ · ≤ N − 1`, reduces that test over the column's unit axis, gathers the rows (the gather clamps its start
  index), and where the test failed replaces the gathered row by a fill value. For a word whose value is a row number
  below `N` nothing of this bites: the wrap leaves the word alone, the test passes, the clamp does nothing, and the
  result at `(b, d)` is the table's entry at that row, column `d`.
-/
import proofs.«413470_j1700807049514_1_alg».proof.Proof.Gen.KernelIdeal
import proofs.«413470_j1700807049514_1_alg».proof.Proof.Words
import proofs.«413470_j1700807049514_1_alg».proof.Proof.LibRowGather
import Idealize.ShloMosaic.Lib.Pipeline.Value
import Idealize.ShloMosaic.PureOps.Reduce

noncomputable section

namespace Cert.KernelIdeal.Take

open Cert.KernelIdeal Cert.KernelIdeal.Facts₀ Cert.KernelIdeal.Facts
open Idealize.ShloMosaic Idealize.ShloMosaic.ValueIdx Idealize.ShloMosaic.RowGather

/-! ## An `and`-reduce whose operands are all one -/

/-- A reduce by `and` from the initial value one, all of whose contributing operands are one, is one. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  have hmem : ∀ i ∈ (((List.finRange s.numel).map s.rowMajor.symm).filter fun i => h.drop i = j), x i = 1#1 :=
    fun i hi => hx i (by simpa using (List.mem_filter.1 hi).2)
  revert hmem
  generalize (((List.finRange s.numel).map s.rowMajor.symm).filter fun i => h.drop i = j) = l
  intro hmem
  induction l with
  | nil => rfl
  | cons a l ih =>
    rw [List.foldl_cons, hmem a (List.mem_cons_self ..)]
    exact ih fun i hi => hmem i (List.mem_cons_of_mem _ hi)

/-! ## The pieces of the take, as the program spells them -/

/-- The index words wrapped (a negative word gets the extent `ext` added) and laid out as a column. -/
def wrapCol (ext : BitVec 32) (idx : IVec S65536 32) : IVec S65536x1 32 :=
  broadcastInDim S65536x1 ![0] bcast_S65536_S65536x1_0
    (select (cmpi .slt idx (broadcastInDim S65536 ![] bcast_S_S65536 (constantI S_ 32 0#32)))
      (addi idx (broadcastInDim S65536 ![] bcast_S_S65536 (constantI S_ 32 ext))) idx)

/-- Per sample, whether its column word lies in `[0, top]`. -/
def inBounds (top : BitVec 32) (col : IVec S65536x1 32) : IVec S65536 1 :=
  Host.reduce IntOp.andi
    (andi (cmpi .sge col (broadcastInDim S65536x1 ![] bcast_S_S65536x1 (constantI S_ 32 0#32)))
      (cmpi .sle col (broadcastInDim S65536x1 ![0, 1] bcast_S1x1_S65536x1_0_1
        (broadcastInDim S1x1 ![1] bcast_S1_S1x1_1 (constantI S1 32 top)))))
    (constantI S_ 1 1#1) reducesTo_S65536x1_S65536_d1 h_S_

/-- The gathered rows where the test passed, the fill value elsewhere. -/
def fillOr (ok : IVec S65536 1) (g : FVec Ideal S65536x768 .f32) : FVec Ideal S65536x768 .f32 :=
  select (broadcastInDim S65536x768 ![0] bcast_S65536_S65536x768_0 ok) g
    (broadcastInDim S65536x768 ![] bcast_S_S65536x768 (constant S_ .f32 0x7FC00000#32))

/-! ## Each piece at a sample whose word is small -/

theorem wrapCol_apply (ext : BitVec 32) (idx : IVec S65536 32) (b : Fin 65536) (h : (idx (ix1 b)).toNat < 2 ^ 31) :
    wrapCol ext idx (ix2 b 0) = idx (ix1 b) := by
  unfold wrapCol
  rw [broadcastInDim_apply _ bcast_S65536_S65536x1_0 _ (ix2 b (0 : Fin 1)) (ix1 b)
    (fun a => by match a with | ⟨0, _⟩ => show b.val = if (65536 : Nat) = 1 then 0 else b.val; rw [if_neg (by decide)])]
  show Scalar.select (IntOp.cmpi .slt (idx (ix1 b)) _) (IntOp.addi (idx (ix1 b)) _) (idx (ix1 b)) = _
  rw [broadcastInDim_apply _ bcast_S_S65536 (constantI S_ 32 0#32) (ix1 b) ix0 (fun a => a.elim0)]
  exact Cert.Words.wrap_of_small h

theorem inBounds_apply (top : Nat) (htop : top < 2 ^ 31) (col : IVec S65536x1 32)
    (h : ∀ p : Fin 65536, (col (ix2 p 0)).toNat ≤ top) (b : Fin 65536) :
    inBounds (BitVec.ofNat 32 top) col (ix1 b) = 1#1 := by
  unfold inBounds
  refine reduce_andi_of_all _ (constantI S_ 1 1#1) reducesTo_S65536x1_S65536_d1 h_S_ (ix1 b) rfl fun i _ => ?_
  obtain ⟨p, q, rfl⟩ : ∃ (p : Fin 65536) (q : Fin 1), i = ix2 p q := ⟨i 0, i 1, eq_ix2 i⟩
  obtain rfl : q = 0 := Subsingleton.elim _ _
  show IntOp.andi (IntOp.cmpi .sge (col (ix2 p 0)) _) (IntOp.cmpi .sle (col (ix2 p 0)) _) = 1#1
  rw [broadcastInDim_apply _ bcast_S_S65536x1 (constantI S_ 32 0#32) (ix2 p (0 : Fin 1)) ix0 (fun a => a.elim0),
    broadcastInDim_apply _ bcast_S1x1_S65536x1_0_1 _ (ix2 p (0 : Fin 1)) (ix2 (0 : Fin 1) (0 : Fin 1))
      (fun a => by match a with | ⟨0, _⟩ => exact (if_pos rfl).symm | ⟨1, _⟩ => exact (if_pos rfl).symm),
    broadcastInDim_apply _ bcast_S1_S1x1_1 (constantI S1 32 (BitVec.ofNat 32 top)) (ix2 (0 : Fin 1) (0 : Fin 1))
      (ix1 (0 : Fin 1)) (fun a => by match a with | ⟨0, _⟩ => exact (if_pos rfl).symm)]
  exact IntOp.andi_eq_one.mpr ⟨Cert.Words.sge_zero_of_small (by have := h p; omega), Cert.Words.sle_of_le top htop (h p)⟩

theorem fillOr_apply (ok : IVec S65536 1) (g : FVec Ideal S65536x768 .f32) (b : Fin 65536) (d : Fin 768)
    (h : ok (ix1 b) = 1#1) : fillOr ok g (ix2 b d) = g (ix2 b d) := by
  unfold fillOr
  show Scalar.select (broadcastInDim S65536x768 ![0] bcast_S65536_S65536x768_0 ok (ix2 b d)) _ _ = _
  rw [broadcastInDim_apply _ bcast_S65536_S65536x768_0 ok (ix2 b d) (ix1 b)
    (fun a => by match a with | ⟨0, _⟩ => show b.val = if (65536 : Nat) = 1 then 0 else b.val; rw [if_neg (by decide)]), h, select_one]

end Cert.KernelIdeal.Take

end
-- ==== Proof.Spec.lean ====
/-
  What both programs compute, as one function of the six argument arrays, element by element over the extended reals.

  For sample `b` with class `c = class_ids[b]` and stage `s = stages[b]`, and for each of the 768 features `d`:

    out[b, d] = features[b, d] + ½ · (classMean[c, s, d] + sharedMean[s, d])

  where `classMean[c, s, d]` is the sum of the eight prototype slots `class_protos[c, s, ·, d]` divided by
  `max(proto_counts[c, s], 1)` read as a number, and `sharedMean[s, d]` is the sum of the sixteen shared prototypes
  `shared_protos[s, ·, d]` divided by sixteen. The two table rows are selected by the sample's own class and stage words,
  read as signed integers and clamped into the table (for a class in `[0, 1000)` and a stage in `[0, 4)` the clamp does
  nothing).
-/
import Idealize.ShloMosaic.Lib.ValueIdx
import Idealize.ShloMosaic.PureOps.Ideal.Laws

noncomputable section

namespace Cert.Spec

open Idealize.ShloMosaic Idealize.ShloMosaic.ValueIdx

abbrev SFeat : Shape := ⟨2, ![65536, 768]⟩
abbrev SIds : Shape := ⟨1, ![65536]⟩
abbrev SProtos : Shape := ⟨4, ![1000, 4, 8, 768]⟩
abbrev SCounts : Shape := ⟨2, ![1000, 4]⟩
abbrev SShared : Shape := ⟨3, ![4, 16, 768]⟩
abbrev STable : Shape := ⟨3, ![1000, 4, 768]⟩
abbrev SMean : Shape := ⟨2, ![4, 768]⟩

/-- The mean prototype of class `c` at stage `s`, feature `d`: the eight slots' sum over the count floored at one. -/
def classMean (protos : FVec Ideal SProtos .f32) (counts : IVec SCounts 32) (c : Fin 1000) (s : Fin 4) (d : Fin 768) : EReal :=
  Ideal.div (Ideal.ofBits .f32 0x00000000#32 + ∑ p : Fin 8, protos (ix4 c s p d))
    (FloatOps.sitofp (F := Ideal) .f32 (IntOp.maxsi (counts (ix2 c s)) 1#32))

/-- The class-mean table as an array `[1000, 4, 768]`. -/
def classTable (protos : FVec Ideal SProtos .f32) (counts : IVec SCounts 32) : FVec Ideal STable .f32 :=
  fun i => classMean protos counts ⟨(i 0).val, (i 0).isLt⟩ ⟨(i 1).val, (i 1).isLt⟩ ⟨(i 2).val, (i 2).isLt⟩

theorem classTable_apply (protos : FVec Ideal SProtos .f32) (counts : IVec SCounts 32) (c : Fin 1000) (s : Fin 4) (d : Fin 768) :
    classTable protos counts (ix3 c s d) = classMean protos counts c s d := rfl

/-- The mean shared prototype of stage `s`, feature `d`: the sixteen prototypes' sum over sixteen. -/
def sharedMean (shared : FVec Ideal SShared .f32) (s : Fin 4) (d : Fin 768) : EReal :=
  Ideal.div (Ideal.ofBits .f32 0x00000000#32 + ∑ q : Fin 16, shared (ix3 s q d)) (Ideal.ofBits .f32 0x41800000#32)

/-- The shared-mean table as an array `[4, 768]`. -/
def sharedTable (shared : FVec Ideal SShared .f32) : FVec Ideal SMean .f32 :=
  fun i => sharedMean shared ⟨(i 0).val, (i 0).isLt⟩ ⟨(i 1).val, (i 1).isLt⟩

theorem sharedTable_apply (shared : FVec Ideal SShared .f32) (s : Fin 4) (d : Fin 768) :
    sharedTable shared (ix2 s d) = sharedMean shared s d := rfl

/-- A 32-bit word read as a signed integer and clamped into `[0, n − 1]`: the row of an `n`-row table it selects. -/
def rowOf (n : Nat) (hn : 0 < n) (w : BitVec 32) : Fin n := ⟨min w.toInt.toNat (n - 1), by omega⟩

theorem rowOf_val (n : Nat) (hn : 0 < n) (w : BitVec 32) : (rowOf n hn w).val = min w.toInt.toNat (n - 1) := rfl

/-- A word whose value is below `n` (and below 2³¹) selects the row of that number. -/
theorem rowOf_of_lt (n : Nat) (hn : 0 < n) (w : BitVec 32) (h : w.toNat < n) (hn' : n ≤ 2 ^ 31) :
    (rowOf n hn w).val = w.toNat := by
  have : w.toInt = w.toNat := by
    rw [BitVec.toInt_eq_toNat_cond, if_pos (by omega)]
  rw [rowOf_val, this, Int.toNat_natCast]
  omega

/-- Sample `b`'s class row and stage row. -/
def cls (classIds : IVec SIds 32) (b : Fin 65536) : Fin 1000 := rowOf 1000 (by decide) (classIds (ix1 b))
def stg (stages : IVec SIds 32) (b : Fin 65536) : Fin 4 := rowOf 4 (by decide) (stages (ix1 b))

/-- The result at sample `b`, feature `d`. -/
def fusedAt (feat : FVec Ideal SFeat .f32) (classIds stages : IVec SIds 32) (protos : FVec Ideal SProtos .f32)
    (counts : IVec SCounts 32) (shared : FVec Ideal SShared .f32) (b : Fin 65536) (d : Fin 768) : EReal :=
  feat (ix2 b d) + Ideal.ofBits .f32 0x3F000000#32 *
    (classMean protos counts (cls classIds b) (stg stages b) d + sharedMean shared (stg stages b) d)

/-- The result array. -/
def fused (feat : FVec Ideal SFeat .f32) (classIds stages : IVec SIds 32) (protos : FVec Ideal SProtos .f32)
    (counts : IVec SCounts 32) (shared : FVec Ideal SShared .f32) : FVec Ideal SFeat .f32 :=
  fun i => fusedAt feat classIds stages protos counts shared ⟨(i 0).val, (i 0).isLt⟩ ⟨(i 1).val, (i 1).isLt⟩

theorem fused_apply (feat : FVec Ideal SFeat .f32) (classIds stages : IVec SIds 32) (protos : FVec Ideal SProtos .f32)
    (counts : IVec SCounts 32) (shared : FVec Ideal SShared .f32) (b : Fin 65536) (d : Fin 768) :
    fused feat classIds stages protos counts shared (ix2 b d) = fusedAt feat classIds stages protos counts shared b d := rfl

/-- The last step, element by element: a feature plus half the sum of its two selected table entries. -/
def combine (a p q : FVec Ideal SFeat .f32) : FVec Ideal SFeat .f32 :=
  fun i => a i + Ideal.ofBits .f32 0x3F000000#32 * (p i + q i)

theorem combine_apply (a p q : FVec Ideal SFeat .f32) (i : SFeat.Idx) :
    combine a p q i = a i + Ideal.ofBits .f32 0x3F000000#32 * (p i + q i) := rfl

/-- The sample words are in range: every class word is a number below 1000 and every stage word a number below 4. -/
def InRange (classIds stages : IVec SIds 32) : Prop :=
  ∀ b : Fin 65536, (classIds (ix1 b)).toNat < 1000 ∧ (stages (ix1 b)).toNat < 4

end Cert.Spec

end
-- ==== Proof.ClassMeanPayload.lean ====
/-
  The value the first kernel body stores, read at one element of its output block.

  The body takes a block of prototypes `x0 : [40, 4, 8, 768]` and a block of counts `x1 : [40, 4]` and stores, over the whole
  output block `[40, 4, 768]`, the sum of `x0` over its third axis (the eight slots) divided by `max(x1, 1)` read as a number and
  repeated along the feature axis. At the element `(r, s, d)` that is

    (∑ p, x0[r, s, p, d]) / max(x1[r, s], 1)

  which is the class mean of class `k` at stage `s`, feature `d`, as soon as row `r` of the two blocks is row `k` of the two arrays.
-/
import proofs.«413470_j1700807049514_1_alg».proof.Proof.Gen.KernelIdeal.Skeleton
import proofs.«413470_j1700807049514_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Table

open Cert.KernelIdeal Cert.KernelIdeal.Gen
open Idealize.ShloMosaic Idealize.ShloMosaic.ValueIdx

/-- The reduction over the slot axis, at `(r, s, d)`: the sum of the eight slots `x0[r, s, ·, d]`. -/
theorem slotSum_apply (x0 : FVec Ideal S40x4x8x768 .f32) (h : S40x4x8x768.Reduces [2] S40x4x768)
    (hφ : FKind.Formats .f32) (hacc : (0x00000000#32 : BitVec 32) = FKind.add.neutral .f32 hφ)
    (r : Fin 40) (s : Fin 4) (d : Fin 768) :
    multiReduction (F := Ideal) .add [2] S40x4x768 x0 0x00000000#32 h hφ hacc (ix3 r s d) = ∑ p : Fin 8, x0 (ix4 r s p d) := by
  refine (Ideal.multiReduction_add_single x0 0x00000000#32 h hφ hacc (ix3 r s d)).trans ?_
  refine Finset.sum_congr rfl fun p _ => congrArg x0 ?_
  funext a
  apply Fin.ext
  match a with
  | ⟨0, _⟩ => rfl
  | ⟨1, _⟩ => rfl
  | ⟨2, _⟩ => rfl
  | ⟨3, _⟩ => rfl

/-- A `[40, 4]` vector given a trailing unit axis and repeated along 768 features, at `(r, s, d)`: the vector at `(r, s)`. -/
theorem column_apply {α : Type} (v : S40x4.Idx → α) (h : S40x4.ShapeCasts S40x4x1) (h' : S40x4x1.Broadcasts S40x4x768)
    (r : Fin 40) (s : Fin 4) (d : Fin 768) :
    broadcastTo S40x4x768 (shapeCast S40x4x1 v h) h' (ix3 r s d) = v (ix2 r s) := by
  refine (broadcastTo_apply _ h' (ix3 r s d) (ix3 r s (0 : Fin 1)) ?_).trans ?_
  · intro a
    match a with
    | ⟨0, _⟩ => rfl
    | ⟨1, _⟩ => rfl
    | ⟨2, _⟩ => rfl
  refine shapeCast_apply v h (ix3 r s (0 : Fin 1)) (ix2 r s) ?_
  rw [Shape.rowMajor_val_two, Shape.rowMajor_val_three]
  show r.val * 4 + s.val = (r.val * 4 + s.val) * 1 + 0
  omega

/-- The stored value at `(r, s, d)`: the slots' sum over the count floored at one. -/
theorem pay_apply (x1 : IVec S40x4 32) (x0 : FVec Ideal S40x4x8x768 .f32) (r : Fin 40) (s : Fin 4) (d : Fin 768) :
    k0_pay1 (F := Ideal) x1 x0 (ix3 r s d)
      = Ideal.div (∑ p : Fin 8, x0 (ix4 r s p d)) (FloatOps.sitofp (F := Ideal) .f32 (IntOp.maxsi (x1 (ix2 r s)) 1#32)) := by
  unfold k0_pay1
  dsimp only
  rw [divf_apply]
  refine congrArg₂ Ideal.div (slotSum_apply x0 _ _ _ r s d) ?_
  exact column_apply _ _ _ r s d

/-- When row `r` of the two blocks is row `k` of the two arrays, the stored value at `(r, s, d)` is the class mean of class `k`. -/
theorem pay_classMean (protos : FVec Ideal Cert.Spec.SProtos .f32) (counts : IVec Cert.Spec.SCounts 32)
    (x1 : IVec S40x4 32) (x0 : FVec Ideal S40x4x8x768 .f32) (r : Fin 40) (s : Fin 4) (d : Fin 768) (k : Fin 1000)
    (h0 : ∀ p : Fin 8, x0 (ix4 r s p d) = protos (ix4 k s p d)) (h1 : x1 (ix2 r s) = counts (ix2 k s)) :
    k0_pay1 (F := Ideal) x1 x0 (ix3 r s d) = Cert.Spec.classMean protos counts k s d := by
  rw [pay_apply, h1, Finset.sum_congr rfl fun p _ => h0 p]
  unfold Cert.Spec.classMean
  rw [Ideal.ofBits_zero_f32, zero_add]

end Cert.KernelIdeal.Table

end
-- ==== Proof.KernelTable.lean ====
/-
  The class-mean table after the first call.

  The first call runs over 25 points; point `t` reads classes `40·t … 40·t + 39` of the prototype array `[1000, 4, 8, 768]` and of the
  count array `[1000, 4]`, and writes the same 40 classes of the table `[1000, 4, 768]`. At `(r, s, d)` of its block it stores the
  eight slots' sum over the count floored at one, which is the class mean of class `40·t + r` (the payload read at an index). So what
  point `t` writes back is block `t` of the whole class-mean table; class `k` lies in the block of point `k / 40`, so the 25 blocks
  cover the table, and the array ends holding the class-mean table of the two arrays the call found.
-/
import proofs.«413470_j1700807049514_1_alg».proof.Proof.Gen.KernelIdeal.Frame
import proofs.«413470_j1700807049514_1_alg».proof.Proof.Spec
import proofs.«413470_j1700807049514_1_alg».proof.Proof.ClassMeanPayload
import Idealize.ShloMosaic.Lib.ValueIdx
import Idealize.ShloMosaic.Lib.Pipeline.Value
import Idealize.ShloMosaic.PureOps.Ideal.Laws

set_option maxRecDepth 16384

noncomputable section

namespace Cert.KernelIdeal.Table

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The three index maps, decided over the 25 grid points: at point `t` every window's block index is `t` on the class
    axis and `0` on every other axis. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The grid has 25 points. -/
theorem point_lt (t : Fin cfg0.N) : t.val < 25 := Nat.lt_of_lt_of_eq t.isLt N_0

/-- What point `t` writes back is block `t` of the class-mean table of the two arrays as the call finds them. -/
theorem flushed_eq (c : Dev nD) (t : Fin cfg0.N) :
    (dat0 (F := Ideal) V c).flushed 2 t
      = ((cfg0.win 2).blk t).view.read (Elt Ideal) (Cert.Spec.classTable (V c main_arg3) (V c main_arg4)) := by
  show (cfg0.win 2).cut (grid0.coords t) ((dat0 (F := Ideal) V c).after 2 t) = _
  rw [after0_2]
  unfold out0_2
  rw [View.canon_unit_zero zeros3]
  simp only [View.ld_unit_zero (S := S40x4) zeros2, View.ld_unit_zero (S := S40x4x8x768) zeros4]
  obtain ⟨a0, a1, a2, a3, b0, b1, c0, c1, c2⟩ := index_facts t
  have ht : t.val < 25 := point_lt t
  funext j
  have hj0 : (j 0).val < 40 := (j 0).isLt
  have hj1 : (j 1).val < 4 := (j 1).isLt
  have hj2 : (j 2).val < 768 := (j 2).isLt
  show k0_pay1 (F := Ideal) (iblk0 V c 1 t) (iblk0 V c 0 t) j
    = Cert.Spec.classTable (V c main_arg3) (V c main_arg4) (((cfg0.win 2).blk t).view.emb j)
  have ej : j = ix3 (⟨(j 0).val, hj0⟩ : Fin 40) (⟨(j 1).val, hj1⟩ : Fin 4) (⟨(j 2).val, hj2⟩ : Fin 768) :=
    funext fun a => match a with | ⟨0, _⟩ => rfl | ⟨1, _⟩ => rfl | ⟨2, _⟩ => rfl
  refine (congrArg (k0_pay1 (F := Ideal) (iblk0 V c 1 t) (iblk0 V c 0 t)) ej).trans ?_
  refine (pay_classMean (V c main_arg3) (V c main_arg4) (iblk0 V c 1 t) (iblk0 V c 0 t)
    ⟨(j 0).val, hj0⟩ ⟨(j 1).val, hj1⟩ ⟨(j 2).val, hj2⟩ ⟨t.val * 40 + (j 0).val, by omega⟩ ?_ ?_).trans ?_
  · intro p
    show V c main_arg3 (((cfg0.win 0).blk t).view.emb (ix4 (⟨(j 0).val, hj0⟩ : Fin 40) (⟨(j 1).val, hj1⟩ : Fin 4) p (⟨(j 2).val, hj2⟩ : Fin 768))) = _
    refine congrArg (V c main_arg3) (funext fun a => Fin.ext ?_)
    match a with
    | ⟨0, _⟩ => show win0_0.index t (0 : Fin 4) * 40 + 1 * (j 0).val = t.val * 40 + (j 0).val; omega
    | ⟨1, _⟩ => show win0_0.index t (1 : Fin 4) * 4 + 1 * (j 1).val = (j 1).val; omega
    | ⟨2, _⟩ => show win0_0.index t (2 : Fin 4) * 8 + 1 * p.val = p.val; omega
    | ⟨3, _⟩ => show win0_0.index t (3 : Fin 4) * 768 + 1 * (j 2).val = (j 2).val; omega
  · show V c main_arg4 (((cfg0.win 1).blk t).view.emb (ix2 (⟨(j 0).val, hj0⟩ : Fin 40) (⟨(j 1).val, hj1⟩ : Fin 4))) = _
    refine congrArg (V c main_arg4) (funext fun a => Fin.ext ?_)
    match a with
    | ⟨0, _⟩ => show win0_1.index t (0 : Fin 2) * 40 + 1 * (j 0).val = t.val * 40 + (j 0).val; omega
    | ⟨1, _⟩ => show win0_1.index t (1 : Fin 2) * 4 + 1 * (j 1).val = (j 1).val; omega
  · refine (Cert.Spec.classTable_apply (V c main_arg3) (V c main_arg4) _ _ _).symm.trans ?_
    refine congrArg (Cert.Spec.classTable (V c main_arg3) (V c main_arg4)) (funext fun a => Fin.ext ?_)
    match a with
    | ⟨0, _⟩ => show t.val * 40 + (j 0).val = win0_2.index t (0 : Fin 3) * 40 + 1 * (j 0).val; omega
    | ⟨1, _⟩ => show (j 1).val = win0_2.index t (1 : Fin 3) * 4 + 1 * (j 1).val; omega
    | ⟨2, _⟩ => show (j 2).val = win0_2.index t (2 : Fin 3) * 768 + 1 * (j 2).val; omega

/-- An index of the table is in point `t`'s block iff each coordinate is in the block's range on its axis. -/
theorem mem_blk (t : Fin cfg0.N) (i : S1000x4x768.Idx) :
    i ∈ ((cfg0.win 2).blk t).view.set ↔ ∀ a : Fin 3, win0_2.index t a * S40x4x768.size a ≤ (i a).val ∧ (i a).val < win0_2.index t a * S40x4x768.size a + S40x4x768.size a := by
  show i ∈ ((View.whole main_v0).slice (win0_2.rect t)).set ↔ _
  rw [View.set_slice_whole, Rect.mem_set_unit]
  exact Iff.rfl

/-- Every index of the table is in some point's block: class `k` is in the block of point `k / 40`. -/
theorem cover (i : S1000x4x768.Idx) :
    ∃ t : Fin cfg0.N, (cfg0.win 2).flush t = true ∧ i ∈ ((cfg0.win 2).blk t).view.set := by
  have hi0 : (i 0).val < 1000 := (i 0).isLt
  have hi1 : (i 1).val < 4 := (i 1).isLt
  have hi2 : (i 2).val < 768 := (i 2).isLt
  have hq : (i 0).val / 40 < cfg0.N := by rw [show cfg0.N = 25 from N_0]; omega
  refine ⟨⟨(i 0).val / 40, hq⟩, flush0_2 _, ?_⟩
  obtain ⟨-, -, -, -, -, -, c0, c1, c2⟩ := index_facts ⟨(i 0).val / 40, hq⟩
  rw [mem_blk]
  intro a
  match a with
  | ⟨0, _⟩ =>
    show win0_2.index ⟨(i 0).val / 40, hq⟩ (0 : Fin 3) * 40 ≤ (i 0).val ∧ (i 0).val < win0_2.index ⟨(i 0).val / 40, hq⟩ (0 : Fin 3) * 40 + 40
    rw [c0]; show (i 0).val / 40 * 40 ≤ (i 0).val ∧ (i 0).val < (i 0).val / 40 * 40 + 40; omega
  | ⟨1, _⟩ =>
    show win0_2.index ⟨(i 0).val / 40, hq⟩ (1 : Fin 3) * 4 ≤ (i 1).val ∧ (i 1).val < win0_2.index ⟨(i 0).val / 40, hq⟩ (1 : Fin 3) * 4 + 4
    rw [c1]; omega
  | ⟨2, _⟩ =>
    show win0_2.index ⟨(i 0).val / 40, hq⟩ (2 : Fin 3) * 768 ≤ (i 2).val ∧ (i 2).val < win0_2.index ⟨(i 0).val / 40, hq⟩ (2 : Fin 3) * 768 + 768
    rw [c2]; omega

/-- After the first pallas_call the table array holds the class means of the arrays the call found. -/
theorem table_eq (c : Dev nD) :
    (dat0 (F := Ideal) V c).arrAt 2 cfg0.N = Cert.Spec.classTable (V c main_arg3) (V c main_arg4) :=
  (dat0 (F := Ideal) V c).arrAt_eq_of_cover 2 (Cert.Spec.classTable (V c main_arg3) (V c main_arg4))
    (fun t _ => flushed_eq V c t) cover

end Cert.KernelIdeal.Table

end
-- ==== Proof.KernelFuse.lean ====
/-
  The result array after the second call.

  The second call runs over 64 points; point `t` reads samples `1024·t … 1024·t + 1023` of the feature array and of the two
  arrays of taken rows, all `[65536, 768]`, and writes the same 1024 samples of the result. At each element of its block it
  stores the feature plus one half of the sum of the two taken entries. So what point `t` writes back is block `t` of that
  element-by-element combination of the three whole arrays; sample `r` lies in the block of point `r / 1024`, so the 64
  blocks cover the result, and the array ends holding the combination of the three arrays the call found.
-/
import proofs.«413470_j1700807049514_1_alg».proof.Proof.Gen.KernelIdeal.Frame
import proofs.«413470_j1700807049514_1_alg».proof.Proof.Spec
import Idealize.ShloMosaic.Lib.Pipeline.Value

set_option maxRecDepth 16384

noncomputable section

namespace Cert.KernelIdeal.Fuse

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- A block of 1024 samples by 768 features, and a whole array of 65536 samples, over the extended reals. -/
abbrev Block : Type := S1024x768.Idx → EReal
abbrev Whole : Type := S65536x768.Idx → EReal

/-- The body's loads and its store start at the block's origin. -/
theorem origin : (![0, 0] : Fin 2 → Nat) = fun _ => 0 := funext fun a => by fin_cases a <;> rfl

/-- The body's stored value, element by element: the first block plus half the sum of the other two (the two shape casts
    are of the block's shape onto itself, and the broadcast constant is one half). -/
theorem payload_eq (x0 x1 x2 : Block) :
    k1_pay1 (F := Ideal) x0 x1 x2 = fun j => x0 j + Ideal.ofBits .f32 0x3F000000#32 * (x1 j + x2 j) := by
  unfold k1_pay1
  simp only [shapeCast_self]
  rfl

/-- So the output's staging buffer after the body holds that value of the three input buffers. -/
theorem out_eq (x0 x1 x2 : Block) :
    out1_3 (F := Ideal) x0 x1 x2 = fun j => x0 j + Ideal.ofBits .f32 0x3F000000#32 * (x1 j + x2 j) := by
  unfold out1_3
  rw [View.canon_unit_zero origin]
  simp only [View.ld_unit_zero (S := S1024x768) origin]
  exact payload_eq x0 x1 x2

/-- The four index maps over the 64 grid points: every window's block at point `t` is block `(t, 0)` of its array. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Three arrays read at one place. -/
theorem combine_at (A P Q : Whole) (i0 i1 i2 i : S65536x768.Idx) (h0 : i0 = i) (h1 : i1 = i) (h2 : i2 = i) :
    A i0 + Ideal.ofBits .f32 0x3F000000#32 * (P i1 + Q i2) = Cert.Spec.combine A P Q i := by
  subst h0 h1 h2; rfl

/-- What grid point `t` writes back is block `t` of the combination of the three arrays the call found: each input
    block sits in its array where the output block sits in the result, at rows `1024·t … 1024·t + 1023`. -/
theorem flushed_eq (c : Dev nD) (t : Fin cfg1.N) :
    (dat1 (F := Ideal) V c).flushed 3 t
      = ((cfg1.win 3).blk t).view.read (Elt Ideal)
          (Cert.Spec.combine (V c main_arg0) (V c main_v8) (V c main_v9)) := by
  show (cfg1.win 3).cut (grid1.coords t) ((dat1 V c).after 3 t) = _
  rw [after1_3]
  refine (congrArg ((cfg1.win 3).cut (grid1.coords t)) (out_eq (iblk1 V c 0 t) (iblk1 V c 1 t) (iblk1 V c 2 t))).trans ?_
  obtain ⟨a0, a1, b0, b1, c0, c1, d0, d1⟩ := index_facts t
  funext j
  refine combine_at (V c main_arg0) (V c main_v8) (V c main_v9)
    (((cfg1.win 0).blk t).view.emb j) (((cfg1.win 1).blk t).view.emb j) (((cfg1.win 2).blk t).view.emb j)
    (((cfg1.win 3).blk t).view.emb j) ?_ ?_ ?_
  · funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 768 + 1 * (j 1).val = win1_3.index t (1 : Fin 2) * 768 + 1 * (j 1).val; omega
  · funext a; apply Fin.ext
    match a with
    | ⟨0, _⟩ => show win1_1.index t (0 : Fin 2) * 1024 + 1 * (j 0).val = win1_3.index t (0 : Fin 2) * 1024 + 1 * (j 0).val; omega
    | ⟨1, _⟩ => show win1_1.index t (1 : Fin 2) * 768 + 1 * (j 1).val = win1_3.index t (1 : Fin 2) * 768 + 1 * (j 1).val; omega
  · funext a; apply Fin.ext
    match a with
    | ⟨0, _⟩ => show win1_2.index t (0 : Fin 2) * 1024 + 1 * (j 0).val = win1_3.index t (0 : Fin 2) * 1024 + 1 * (j 0).val; omega
    | ⟨1, _⟩ => show win1_2.index t (1 : Fin 2) * 768 + 1 * (j 1).val = win1_3.index t (1 : Fin 2) * 768 + 1 * (j 1).val; omega

/-- An index of the result array is in point `t`'s block when, on each axis, it is within the block's extent from the
    block's first coordinate. -/
theorem mem_block (t : Fin cfg1.N) (i : S65536x768.Idx) :
    i ∈ ((cfg1.win 3).blk t).view.set ↔
      ∀ a : Fin 2, win1_3.index t a * S1024x768.size a ≤ (i a).val
        ∧ (i a).val < win1_3.index t a * S1024x768.size a + S1024x768.size a := by
  show i ∈ ((View.whole main_v10).slice (win1_3.rect t)).set ↔ _
  rw [View.set_slice_whole, Rect.mem_set_unit]
  exact Iff.rfl

/-- The 64 blocks tile the result array: row `r` is in the block of point `r / 1024`, which is written back. -/
theorem covered (i : S65536x768.Idx) :
    ∃ t : Fin cfg1.N, (cfg1.win 3).flush t = true ∧ i ∈ ((cfg1.win 3).blk t).view.set := by
  have hi0 : (i 0).val < 65536 := (i 0).isLt
  have hi1 : (i 1).val < 768 := (i 1).isLt
  have hN : cfg1.N = 64 := N_1
  have ht : (i 0).val / 1024 < cfg1.N := by rw [hN]; omega
  obtain ⟨-, -, -, -, -, -, d0, d1⟩ := index_facts ⟨(i 0).val / 1024, ht⟩
  refine ⟨⟨(i 0).val / 1024, ht⟩, flush1_3 _, ?_⟩
  rw [mem_block]
  intro a
  match a with
  | ⟨0, _⟩ =>
    show win1_3.index ⟨(i 0).val / 1024, ht⟩ (0 : Fin 2) * 1024 ≤ (i 0).val
      ∧ (i 0).val < win1_3.index ⟨(i 0).val / 1024, ht⟩ (0 : Fin 2) * 1024 + 1024
    rw [d0]
    show (i 0).val / 1024 * 1024 ≤ (i 0).val ∧ (i 0).val < (i 0).val / 1024 * 1024 + 1024
    omega
  | ⟨1, _⟩ =>
    show win1_3.index ⟨(i 0).val / 1024, ht⟩ (1 : Fin 2) * 768 ≤ (i 1).val
      ∧ (i 1).val < win1_3.index ⟨(i 0).val / 1024, ht⟩ (1 : Fin 2) * 768 + 768
    rw [d1]
    omega

/-- After the second pallas_call the result array holds, element by element, the features plus half the sum of the
    two gathered rows, of the arrays the call found. -/
theorem fuse_eq (c : Dev nD) :
    (dat1 (F := Ideal) V c).arrAt 3 cfg1.N = Cert.Spec.combine (V c main_arg0) (V c main_v8) (V c main_v9) :=
  (dat1 (F := Ideal) V c).arrAt_eq_of_cover 3 (Cert.Spec.combine (V c main_arg0) (V c main_v8) (V c main_v9))
    (fun t _ => flushed_eq V c t) covered

end Cert.KernelIdeal.Fuse

end
-- ==== Proof.RefValue.lean ====
/-
  The reference's last stage is the specification's `fused`, element by element, for class and stage words in range.

  The reference builds the class-mean table (a sum over the eight slots, divided by the floored count) and the
  shared-mean table (a sum over sixteen, divided by sixteen), wraps negative index words, selects per sample the table
  entry `(class, stage)` and the shared row `stage` (a gather clamps its start index into the table), and adds to the
  features half the sum of the two.
-/
import proofs.«413470_j1700807049514_1_alg».proof.Proof.Gen.ReferenceIdeal.Read
import proofs.«413470_j1700807049514_1_alg».proof.Proof.Spec
import proofs.«413470_j1700807049514_1_alg».proof.Proof.Words
import proofs.«413470_j1700807049514_1_alg».proof.Proof.LibRowGather

noncomputable section

namespace Cert.ReferenceIdeal.RefValue

open Cert.ReferenceIdeal Cert.ReferenceIdeal.Gen Cert.ReferenceIdeal.Read
open Idealize.ShloMosaic Idealize.ShloMosaic.ValueIdx Idealize.ShloMosaic.RowGather

/-! ## The two tables -/

/-- Slot `k` of the eight summed for table entry `(c, s, d)`. -/
theorem idx_slot (c : Fin 1000) (s : Fin 4) (d : Fin 768) (k : Fin 8) : idx_main_v0 (ix3 c s d) k = ix4 c s k d :=
  funext fun a => Fin.ext (by match a with | ⟨0, _⟩ => rfl | ⟨1, _⟩ => rfl | ⟨2, _⟩ => rfl | ⟨3, _⟩ => rfl)

/-- The count that divides table entry `(c, s, d)` is the one of `(c, s)`. -/
theorem idx_count (c : Fin 1000) (s : Fin 4) (d : Fin 768) : idx_main_v4 (idx_main_v5 (ix3 c s d)) = ix2 c s :=
  funext fun a => Fin.ext (by match a with | ⟨0, _⟩ => rfl | ⟨1, _⟩ => rfl)

/-- Prototype `k` of the sixteen summed for shared entry `(s, d)`. -/
theorem idx_shared (s : Fin 4) (d : Fin 768) (k : Fin 16) : idx_main_v21 (ix2 s d) k = ix3 s k d :=
  funext fun a => Fin.ext (by match a with | ⟨0, _⟩ => rfl | ⟨1, _⟩ => rfl | ⟨2, _⟩ => rfl)

/-- The reference's class-mean table is the specification's. -/
theorem table_ref (x3 : FVec Ideal S1000x4x8x768 .f32) (x4 : IVec S1000x4 32) :
    val_main_v6 (F := Ideal) x3 x4 = Cert.Spec.classTable x3 x4 := by
  funext i
  obtain ⟨c, s, d, rfl⟩ : ∃ (c : Fin 1000) (s : Fin 4) (d : Fin 768), i = ix3 c s d := ⟨i 0, i 1, i 2, eq_ix3 i⟩
  rw [Cert.Spec.classTable_apply, val_main_v6_apply, val_main_v0_apply, val_main_v5_apply, val_main_v4_apply,
    val_main_v3_apply, val_main_v2_apply, val_main_v1_apply, val_main_c_apply, val_main_cst_apply]
  simp only [idx_slot, idx_count]
  rfl

/-- The reference's shared-mean table is the specification's. -/
theorem mean_ref (x5 : FVec Ideal S4x16x768 .f32) :
    val_main_v23 (F := Ideal) x5 = Cert.Spec.sharedTable x5 := by
  funext i
  obtain ⟨s, d, rfl⟩ : ∃ (s : Fin 4) (d : Fin 768), i = ix2 s d := ⟨i 0, i 1, eq_ix2 i⟩
  rw [Cert.Spec.sharedTable_apply, val_main_v23_apply, val_main_v21_apply, val_main_v22_apply, val_main_cst_5_apply,
    val_main_cst_4_apply]
  simp only [idx_shared]
  rfl

/-! ## The index words: a word in range passes the negative-index wrap unchanged -/

theorem ix_col (b : Fin 65536) : idx_main_v29 (ix2 b (0 : Fin 1)) = ix1 b :=
  funext fun a => Fin.ext (by match a with | ⟨0, _⟩ => rfl)

/-- The stage word the shared gather reads for sample `b`. -/
theorem stage_word (x2 : IVec S65536 32) (b : Fin 65536) (h : (x2 (ix1 b)).toNat < 4) :
    val_main_v29 (F := Ideal) x2 (ix2 b 0) = x2 (ix1 b) := by
  rw [val_main_v29_apply, val_main_v28_apply, val_main_v25_apply, val_main_v27_apply, val_main_v24_apply,
    val_main_c_6_apply, ix_col]
  exact Cert.Words.wrap_of_small (by omega)

/-- Component 0 of the start index of the class gather for sample `b`: the class word. -/
theorem pair_word0 (x1 x2 : IVec S65536 32) (b : Fin 65536) (h : (x1 (ix1 b)).toNat < 1000) :
    val_main_v19 (F := Ideal) x1 x2 (ix2 b 0) = x1 (ix1 b) := by
  unfold val_main_v19
  refine (concatenate_pair_apply_left (t := S65536x2) (s₁ := S65536x1) (s₂ := S65536x1) (1 : Fin 2)
    (val_main_v17 (F := Ideal) x1) (val_main_v18 (F := Ideal) x2) concatenates_S65536x1_S65536x1_S65536x2_d1
    (ix2 b (0 : Fin 2)) rfl (ix2 b (0 : Fin 1)) (fun a => by match a with | ⟨0, _⟩ => rfl | ⟨1, _⟩ => rfl)).trans ?_
  rw [val_main_v17_apply, val_main_v11_apply, val_main_v8_apply, val_main_v10_apply, val_main_v7_apply,
    val_main_c_0_apply]
  rw [show idx_main_v17 (ix2 b (0 : Fin 1)) = ix1 b from funext fun a => Fin.ext (by match a with | ⟨0, _⟩ => rfl)]
  exact Cert.Words.wrap_of_small (by omega)

/-- Component 1 of that start index: the stage word. -/
theorem pair_word1 (x1 x2 : IVec S65536 32) (b : Fin 65536) (h : (x2 (ix1 b)).toNat < 4) :
    val_main_v19 (F := Ideal) x1 x2 (ix2 b 1) = x2 (ix1 b) := by
  unfold val_main_v19
  refine (concatenate_pair_apply_right (t := S65536x2) (s₁ := S65536x1) (s₂ := S65536x1) (1 : Fin 2)
    (val_main_v17 (F := Ideal) x1) (val_main_v18 (F := Ideal) x2) concatenates_S65536x1_S65536x1_S65536x2_d1
    (ix2 b (1 : Fin 2)) rfl rfl (ix2 b (0 : Fin 1))
    (fun a ha => by match a with | ⟨0, _⟩ => rfl | ⟨1, _⟩ => exact absurd rfl ha) rfl).trans ?_
  rw [val_main_v18_apply, val_main_v16_apply, val_main_v13_apply, val_main_v15_apply, val_main_v12_apply,
    val_main_c_2_apply]
  rw [show idx_main_v18 (ix2 b (0 : Fin 1)) = ix1 b from funext fun a => Fin.ext (by match a with | ⟨0, _⟩ => rfl)]
  exact Cert.Words.wrap_of_small (by omega)

/-! ## The two gathers -/

/-- The shared row selected for sample `b`, feature `d`. -/
theorem shared_rows (x2 : IVec S65536 32) (x5 : FVec Ideal S4x16x768 .f32) (b : Fin 65536) (d : Fin 768)
    (h : (x2 (ix1 b)).toNat < 4) :
    val_main_v30 (F := Ideal) x2 x5 (ix2 b d) = Cert.Spec.sharedMean x5 (Cert.Spec.stg x2 b) d := by
  unfold val_main_v30
  refine (gather_row_eq (N := 4) (D := 768) (R := 65536) (by decide)
    gather_S4x768_S65536x1_S65536x768_1_0_n_n_0_1_1768.wf _ _ b d (Cert.Spec.stg x2 b) ?_).trans ?_
  · rw [stage_word x2 b h]; rfl
  · rw [mean_ref]; rfl

/-- The class-mean entry selected for sample `b`, feature `d`. -/
theorem class_rows (x1 x2 : IVec S65536 32) (x3 : FVec Ideal S1000x4x8x768 .f32) (x4 : IVec S1000x4 32)
    (b : Fin 65536) (d : Fin 768) (h1 : (x1 (ix1 b)).toNat < 1000) (h2 : (x2 (ix1 b)).toNat < 4) :
    val_main_v20 (F := Ideal) x1 x2 x3 x4 (ix2 b d)
      = Cert.Spec.classMean x3 x4 (Cert.Spec.cls x1 b) (Cert.Spec.stg x2 b) d := by
  unfold val_main_v20
  refine (gather_pair_eq (A := 1000) (B := 4) (D := 768) (R := 65536) (by decide) (by decide)
    gather_S1000x4x768_S65536x2_S65536x768_1_01_n_n_01_1_11768.wf _ _ b d (Cert.Spec.cls x1 b) (Cert.Spec.stg x2 b) ?_ ?_).trans ?_
  · rw [pair_word0 x1 x2 b h1]; rfl
  · rw [pair_word1 x1 x2 b h2]; rfl
  · rw [table_ref]; rfl

/-! ## The result -/

/-- For class and stage words in range the reference's result is the specification's, element by element. -/
theorem result_eq (x0 : FVec Ideal S65536x768 .f32) (x1 x2 : IVec S65536 32) (x3 : FVec Ideal S1000x4x8x768 .f32)
    (x4 : IVec S1000x4 32) (x5 : FVec Ideal S4x16x768 .f32) (hr : Cert.Spec.InRange x1 x2) :
    val_main_v34 (F := Ideal) x0 x1 x2 x3 x4 x5 = Cert.Spec.fused x0 x1 x2 x3 x4 x5 := by
  funext i
  obtain ⟨b, d, rfl⟩ : ∃ (b : Fin 65536) (d : Fin 768), i = ix2 b d := ⟨i 0, i 1, eq_ix2 i⟩
  rw [Cert.Spec.fused_apply, val_main_v34_apply, val_main_v33_apply, val_main_v31_apply, val_main_v32_apply,
    val_main_cst_8_apply, class_rows x1 x2 x3 x4 b d (hr b).1 (hr b).2, shared_rows x2 x5 b d (hr b).2]
  rfl

end Cert.ReferenceIdeal.RefValue

end
-- ==== Proof.KernelHost.lean ====
/-
  The kernel program's value: from the launch memory to the result array, for class and stage words in range.

  The first pallas_call leaves the class-mean table. The host then forms the shared-mean table, the flat row word
  `4 · class + stage`, the table reshaped to 4000 rows, and takes from it the rows the flat words name and from the
  shared-mean table the rows the stage words name (both takes in jnp's default mode). The second pallas_call adds to
  the features half the sum of the two taken arrays. Row `4 · c + s` of the reshaped table is entry `(c, s)` of the
  table, so the result is the specification's `fused`.
-/
import proofs.«413470_j1700807049514_1_alg».proof.Proof.Gen.KernelIdeal.Frame
import proofs.«413470_j1700807049514_1_alg».proof.Proof.TakeRows
import proofs.«413470_j1700807049514_1_alg».proof.Proof.Spec
import proofs.«413470_j1700807049514_1_alg».proof.Proof.KernelTable
import proofs.«413470_j1700807049514_1_alg».proof.Proof.KernelFuse
import proofs.«413470_j1700807049514_1_alg».proof.Proof.RefValue

set_option maxRecDepth 16384

noncomputable section

namespace Cert.KernelIdeal.HostSide

open Cert.KernelIdeal Cert.KernelIdeal.Gen Cert.KernelIdeal.Take
open Idealize.ShloMosaic Idealize.ShloMosaic.TcCoe Idealize.ShloMosaic.ValueIdx Idealize.ShloMosaic.RowGather
open Idealize.SL.Sem

variable (m : (ℓ : Loc nD τ sig) → Buf (Elt Ideal) ℓ) (ρ : Dev nD → PrngReg)

/-! ## The six argument arrays, at their literal types -/

abbrev feat (c : Dev nD) : FVec Ideal S65536x768 .f32 := m ((c.tc : Thread nD τ).loc main_arg0)
abbrev classIds (c : Dev nD) : IVec S65536 32 := m ((c.tc : Thread nD τ).loc main_arg1)
abbrev stages (c : Dev nD) : IVec S65536 32 := m ((c.tc : Thread nD τ).loc main_arg2)
abbrev protos (c : Dev nD) : FVec Ideal S1000x4x8x768 .f32 := m ((c.tc : Thread nD τ).loc main_arg3)
abbrev counts (c : Dev nD) : IVec S1000x4 32 := m ((c.tc : Thread nD τ).loc main_arg4)
abbrev shared (c : Dev nD) : FVec Ideal S4x16x768 .f32 := m ((c.tc : Thread nD τ).loc main_arg5)

/-! ## The host's own terms -/

/-- The flat row words: four times the class word plus the stage word. -/
def flat (x1 x2 : IVec S65536 32) : IVec S65536 32 :=
  addi (muli x1 (broadcastInDim S65536 ![] Facts₀.bcast_S_S65536 (constantI S_ 32 4#32))) x2

/-- The shared-mean table as the host computes it. -/
def hostMean (x5 : FVec Ideal S4x16x768 .f32) : FVec Ideal S4x768 .f32 :=
  Host.divf (Host.reduceAdd x5 (constant S_ .f32 0x00000000#32) Facts₀.reducesTo_S4x16x768_S4x768_d1 Facts₀.h_S_)
    (broadcastInDim S4x768 ![] Facts₀.bcast_S_S4x768 (constant S_ .f32 0x41800000#32))

/-- The host's shared-mean table is the specification's: the same two operations as the reference's. -/
theorem hostMean_eq (x5 : FVec Ideal S4x16x768 .f32) : hostMean x5 = Cert.Spec.sharedTable x5 :=
  Cert.ReferenceIdeal.RefValue.mean_ref x5

theorem flat_toNat (x1 x2 : IVec S65536 32) (b : Fin 65536) (h1 : (x1 (ix1 b)).toNat < 1000) (h2 : (x2 (ix1 b)).toNat < 4) :
    (flat x1 x2 (ix1 b)).toNat = 4 * (x1 (ix1 b)).toNat + (x2 (ix1 b)).toNat := by
  unfold flat
  show (IntOp.addi (IntOp.muli (x1 (ix1 b)) (broadcastInDim S65536 ![] Facts₀.bcast_S_S65536 (constantI S_ 32 4#32) (ix1 b))) (x2 (ix1 b))).toNat = _
  rw [broadcastInDim_apply _ Facts₀.bcast_S_S65536 (constantI S_ 32 4#32) (ix1 b) ix0 (fun a => a.elim0)]
  exact Cert.Words.flat_toNat h1 h2

/-! ## The reshaped table at a flat row -/

/-- Row `4 · c + s` of the table reshaped to 4000 rows is entry `(c, s)` of the table. -/
theorem reshaped_row (T : FVec Ideal S1000x4x768 .f32) (cc : Fin 1000) (s : Fin 4) (d : Fin 768) (r : Fin 4000)
    (hr : r.val = 4 * cc.val + s.val) :
    shapeCast S4000x768 T Facts₀.shapeCasts_S1000x4x768_S4000x768 (ix2 r d) = T (ix3 cc s d) :=
  shapeCast_apply T _ _ _ (by
    rw [Shape.rowMajor_val_three, Shape.rowMajor_val_two]
    show (cc.val * 4 + s.val) * 768 + d.val = r.val * 768 + d.val
    rw [hr]; omega)

/-! ## What the host stretches leave, buffer by buffer -/

/-- The features reach the second pallas_call as launched. -/
theorem entry_feat (c : Dev nD) : W4 m ρ c (Proc.devRef .tc main_arg0) = feat m c :=
  ((W5_arr m ρ c 0).trans (((dat1 (V4 m ρ) c).arrAt_in 0 rfl _).trans (A_eq1 (V4 m ρ) c 0))).symm.trans
    (W5_main_arg0 m ρ c)

/-- After the first stretch: the flat row words. -/
theorem stretch1_flat (c : Dev nD) :
    W2 m ρ c (Proc.devRef .tc main_v6) = flat (classIds m c) (stages m c) := by
  show StableHlo.after hostOps1 (W1 m ρ c) (Proc.devRef .tc main_v6) = _
  after_results
  rw [W1_of_ne m ρ c main_arg1 (by decide), W1_of_ne m ρ c main_arg2 (by decide)]
  rfl

/-- After the first stretch: the shared-mean table. -/
theorem stretch1_mean (c : Dev nD) :
    W2 m ρ c (Proc.devRef .tc main_v3) = hostMean (shared m c) := by
  show StableHlo.after hostOps1 (W1 m ρ c) (Proc.devRef .tc main_v3) = _
  after_results
  rw [W1_of_ne m ρ c main_arg5 (by decide)]
  rfl

/-- After the first stretch: the class-mean table reshaped to 4000 rows. -/
theorem stretch1_table (c : Dev nD) :
    W2 m ρ c (Proc.devRef .tc main_v7)
      = shapeCast S4000x768 (Cert.Spec.classTable (protos m c) (counts m c)) Facts₀.shapeCasts_S1000x4x768_S4000x768 := by
  show StableHlo.after hostOps1 (W1 m ρ c) (Proc.devRef .tc main_v7) = _
  after_results
  rw [show W1 m ρ c (Proc.devRef .tc main_v0) = Cert.Spec.classTable (protos m c) (counts m c) from
    (W1_arr m ρ c 2).trans (Cert.KernelIdeal.Table.table_eq (V0 m ρ) c)]
  rfl

/-- The table the first pallas_call leaves, as the host stretches find it. -/
theorem table_left (c : Dev nD) :
    W1 m ρ c (Proc.devRef .tc main_v0) = Cert.Spec.classTable (protos m c) (counts m c) :=
  (W1_arr m ρ c 2).trans (Cert.KernelIdeal.Table.table_eq (V0 m ρ) c)

/-- What the second pallas_call finds in `main_v8`: the take, from the table reshaped to 4000 rows, at the flat row
    words. (The third stretch does not write it.) -/
theorem entry_classRows (c : Dev nD) :
    W4 m ρ c (Proc.devRef .tc main_v8)
      = fillOr (inBounds 3999#32 (wrapCol 4000#32 (flat (classIds m c) (stages m c))))
          (Host.gather gather_S4000x768_S65536x1_S65536x768_1_0_n_n_0_1_1768
            (shapeCast S4000x768 (Cert.Spec.classTable (protos m c) (counts m c)) Facts₀.shapeCasts_S1000x4x768_S4000x768)
            (wrapCol 4000#32 (flat (classIds m c) (stages m c)))) := by
  show StableHlo.after hostOps1_2 (W3 m ρ c) (Proc.devRef .tc main_v8) = _
  after_results_simp
  simp only [cast_eq]
  rw [W1_of_ne m ρ c main_arg1 (by decide), W1_of_ne m ρ c main_arg2 (by decide), table_left m ρ c]
  rfl

/-- What the second pallas_call finds in `main_v9`: the take, from the shared-mean table, at the stage words. -/
theorem entry_sharedRows (c : Dev nD) :
    W4 m ρ c (Proc.devRef .tc main_v9)
      = fillOr (inBounds 3#32 (wrapCol 4#32 (stages m c)))
          (Host.gather gather_S4x768_S65536x1_S65536x768_1_0_n_n_0_1_1768 (hostMean (shared m c))
            (wrapCol 4#32 (stages m c))) := by
  show StableHlo.after hostOps1_2 (W3 m ρ c) (Proc.devRef .tc main_v9) = _
  after_results_simp
  simp only [cast_eq]
  rw [W1_of_ne m ρ c main_arg2 (by decide), W1_of_ne m ρ c main_arg5 (by decide)]
  rfl

/-! ## The two taken arrays at a sample, for words in range -/

section AtIndex

variable (c : Dev nD) (hr : Cert.Spec.InRange (classIds m c) (stages m c))
include hr

/-- The shared row taken for sample `b`, feature `d`. -/
theorem sharedRows_at (b : Fin 65536) (d : Fin 768) :
    (W4 m ρ c (Proc.devRef .tc main_v9) : FVec Ideal S65536x768 .f32) (ix2 b d)
      = Cert.Spec.sharedMean (shared m c) (Cert.Spec.stg (stages m c) b) d := by
  rw [entry_sharedRows m ρ c]
  have hcol : ∀ p : Fin 65536, wrapCol 4#32 (stages m c) (ix2 p 0) = stages m c (ix1 p) :=
    fun p => wrapCol_apply _ _ p (by have := (hr p).2; omega)
  rw [fillOr_apply _ _ b d (inBounds_apply 3 (by decide) _ (fun p => by rw [hcol p]; have := (hr p).2; omega) b)]
  refine (gather_row_eq (N := 4) (D := 768) (R := 65536) (by decide)
    gather_S4x768_S65536x1_S65536x768_1_0_n_n_0_1_1768.wf _ _ b d (Cert.Spec.stg (stages m c) b) ?_).trans ?_
  · rw [hcol b]; rfl
  · rw [hostMean_eq]; rfl

/-- The class-mean entry taken for sample `b`, feature `d`. -/
theorem classRows_at (b : Fin 65536) (d : Fin 768) :
    (W4 m ρ c (Proc.devRef .tc main_v8) : FVec Ideal S65536x768 .f32) (ix2 b d)
      = Cert.Spec.classMean (protos m c) (counts m c) (Cert.Spec.cls (classIds m c) b) (Cert.Spec.stg (stages m c) b) d := by
  rw [entry_classRows m ρ c]
  have hflat : ∀ p : Fin 65536, (flat (classIds m c) (stages m c) (ix1 p)).toNat
      = 4 * (classIds m c (ix1 p)).toNat + (stages m c (ix1 p)).toNat :=
    fun p => flat_toNat _ _ p (hr p).1 (hr p).2
  have hcol : ∀ p : Fin 65536, wrapCol 4000#32 (flat (classIds m c) (stages m c)) (ix2 p 0)
      = flat (classIds m c) (stages m c) (ix1 p) :=
    fun p => wrapCol_apply _ _ p (by rw [hflat p]; have := hr p; omega)
  rw [fillOr_apply _ _ b d (inBounds_apply 3999 (by decide) _
    (fun p => by rw [hcol p, hflat p]; have := hr p; omega) b)]
  have hc : (Cert.Spec.cls (classIds m c) b).val = (classIds m c (ix1 b)).toNat :=
    Cert.Spec.rowOf_of_lt 1000 (by decide) _ (hr b).1 (by decide)
  have hs : (Cert.Spec.stg (stages m c) b).val = (stages m c (ix1 b)).toNat :=
    Cert.Spec.rowOf_of_lt 4 (by decide) _ (hr b).2 (by decide)
  refine (gather_row_eq (N := 4000) (D := 768) (R := 65536) (by decide)
    gather_S4000x768_S65536x1_S65536x768_1_0_n_n_0_1_1768.wf _ _ b d
    ⟨4 * (Cert.Spec.cls (classIds m c) b).val + (Cert.Spec.stg (stages m c) b).val, by
      have := (Cert.Spec.cls (classIds m c) b).isLt; have := (Cert.Spec.stg (stages m c) b).isLt; omega⟩ ?_).trans ?_
  · show 4 * (Cert.Spec.cls (classIds m c) b).val + (Cert.Spec.stg (stages m c) b).val = _
    rw [hcol b, Cert.Words.clamp_of_lt 4000 (by decide) (by rw [hflat b]; have := hr b; omega), hflat b, hc, hs]
  · rw [reshaped_row _ (Cert.Spec.cls (classIds m c) b) (Cert.Spec.stg (stages m c) b) d _ rfl]
    rfl

/-- THE KERNEL'S VALUE: the result array after the run is the specification's `fused` of the launch arrays. -/
theorem result_eq :
    W5 m ρ c (Proc.devRef .tc main_v10)
      = Cert.Spec.fused (feat m c) (classIds m c) (stages m c) (protos m c) (counts m c) (shared m c) := by
  rw [show W5 m ρ c (Proc.devRef .tc main_v10) = (dat1 (V4 m ρ) c).arrAt 3 cfg1.N from W5_arr m ρ c 3,
    Cert.KernelIdeal.Fuse.fuse_eq (V4 m ρ) c]
  funext i
  obtain ⟨b, d, rfl⟩ : ∃ (b : Fin 65536) (d : Fin 768), i = ix2 b d := ⟨i 0, i 1, eq_ix2 i⟩
  rw [Cert.Spec.combine_apply, Cert.Spec.fused_apply]
  exact congrArg₂ (· + ·) (congrFun (entry_feat m ρ c) (ix2 b d))
    (congrArg (Ideal.ofBits .f32 0x3F000000#32 * ·)
      (congrArg₂ (· + ·) (classRows_at m ρ c hr b d) (sharedRows_at m ρ c hr b d)))

end AtIndex

end Cert.KernelIdeal.HostSide

end
-- ==== Proof.PreDecode.lean ====
/-
  What the precondition says of the two integer index arrays.

  The precondition is one conjunction of seven "for all elements" tests; the last four are, over all 65536 samples,
  `class_ids ≥ 0`, `class_ids < 1000`, `stages ≥ 0` and `stages < 4`, each a signed comparison of 32-bit words. A
  conjunction that is true has every conjunct true, a "for all" that is true holds at every sample, and a word that is
  nonnegative as a signed integer and below `n` is, as a number, below `n`.
-/
import proofs.«413470_j1700807049514_1_alg».proof.Pre_finite_inputs
import proofs.«413470_j1700807049514_1_alg».proof.Proof.Gen.Pre_finite_inputs
import proofs.«413470_j1700807049514_1_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has exactly one index. -/
local instance : Subsingleton S_.Idx := ⟨fun a b => funext fun d => d.elim0⟩

/-- A 32-bit word that, read as a signed integer, is at least the word `0` and below the word `n` (for `n` below 2³¹)
    is, read as a number, below `n`: being nonnegative it reads the same both ways. -/
theorem toNat_lt_of_signed_range (w : BitVec 32) (n : Nat) (hn : n < 2 ^ 31)
    (h0 : (0#32 : BitVec 32).toInt ≤ w.toInt) (h1 : w.toInt < (BitVec.ofNat 32 n).toInt) : w.toNat < n := by
  have hz : (0#32 : BitVec 32).toInt = 0 := by decide
  have hnI : (BitVec.ofNat 32 n).toInt = n := StableHlo.Predicate.toInt_ofNat_small n hn
  rw [hz] at h0
  rw [hnI] at h1
  rw [BitVec.toInt_eq_toNat_cond] at h0 h1
  have hw := w.isLt
  split at h0 <;> omega

variable [Cert.Pre_finite_inputs.Facts]
variable {F : FTy → Type} [FloatOps F]

/-- The precondition's last four conjuncts say that every class word is a number in `[0, 1000)` and every stage word a
    number in `[0, 4)`. -/
theorem inRange_of_pre (x0 : FVec F S65536x768 .f32) (x1 x2 : IVec S65536 32) (x3 : FVec F S1000x4x8x768 .f32)
    (x4 : IVec S1000x4 32) (x5 : FVec F S4x16x768 .f32)
    (h : Cert.Pre_finite_inputs.fn (F := F) x0 x1 x2 x3 x4 x5 = fun _ => 1#1) : Cert.Spec.InRange x1 x2 := by
  -- the precondition at its one index: a conjunction of seven tests, each an "all" over one array
  have h0 := congrFun h ValueIdx.ix0
  dsimp only [fn, fn_part1] at h0
  simp only [andi, IntOp.andi_eq_one] at h0
  obtain ⟨⟨⟨⟨-, hc0⟩, hc1⟩, hs0⟩, hs1⟩ := h0
  intro b
  -- each "all" that holds, holds at sample `b`
  have a0 := Host.reduce_andi_all _ _ _ _ _ hc0 (ix1 b)
  have a1 := Host.reduce_andi_all _ _ _ _ _ hc1 (ix1 b)
  have b0 := Host.reduce_andi_all _ _ _ _ _ hs0 (ix1 b)
  have b1 := Host.reduce_andi_all _ _ _ _ _ hs1 (ix1 b)
  -- at `b` each test compares the sample's word, read signed, with a constant
  simp only [cmpi, broadcastInDim, constantI, IntOp.cmpi_sge, IntOp.cmpi_slt] at a0 a1 b0 b1
  exact ⟨toNat_lt_of_signed_range _ 1000 (by norm_num) a0 a1, toNat_lt_of_signed_range _ 4 (by norm_num) b0 b1⟩

end Cert.PreDecode

end
-- ==== Proof.lean ====
/-
  The kernel computes, for each of 65536 samples and 768 features,

    out[b, d] = features[b, d] + ½ · (classMean[class_ids[b], stages[b], d] + sharedMean[stages[b], d]),

  where classMean[c, s, ·] is the sum of the eight prototype slots of class c at stage s over max(count[c, s], 1) and
  sharedMean[s, ·] is the mean of the sixteen shared prototypes of stage s (Proof/Spec.lean, `fused`). The kernel builds the
  class-mean table in a first pallas_call, takes rows of it (flattened to 4000 rows, at the flat row 4 · class + stage)
  and of the shared-mean table on the host, and adds in a second pallas_call; the reference indexes the table by the
  pair (class, stage) directly. For class words in [0, 1000) and stage words in [0, 4) — the precondition's integer
  conjuncts — the flat row 4 · c + s of the reshaped table IS entry (c, s), no take is out of range, and both programs
  end at `fused` of the argument arrays: the sums and quotients are the same extended-real terms on both sides, so
  no finiteness is used.

  The three frames are the generated ones (the reference's is its generated run with the result dropped); the ideal
  pass rewrote nothing, so `preserves` is trivial.
-/
import proofs.«413470_j1700807049514_1_alg».proof.Defs
import proofs.«413470_j1700807049514_1_alg».proof.Proof.Gen.Kernel
import proofs.«413470_j1700807049514_1_alg».proof.Proof.Gen.Kernel.Skeleton
import proofs.«413470_j1700807049514_1_alg».proof.Proof.Gen.Kernel.Launch
import proofs.«413470_j1700807049514_1_alg».proof.Proof.Gen.Kernel.Points
import proofs.«413470_j1700807049514_1_alg».proof.Proof.Gen.Kernel.Frame
import proofs.«413470_j1700807049514_1_alg».proof.Proof.Gen.KernelIdeal
import proofs.«413470_j1700807049514_1_alg».proof.Proof.Gen.KernelIdeal.Skeleton
import proofs.«413470_j1700807049514_1_alg».proof.Proof.Gen.KernelIdeal.Launch
import proofs.«413470_j1700807049514_1_alg».proof.Proof.Gen.KernelIdeal.Points
import proofs.«413470_j1700807049514_1_alg».proof.Proof.Gen.KernelIdeal.Frame
import proofs.«413470_j1700807049514_1_alg».proof.Proof.Gen.ReferenceIdeal
import proofs.«413470_j1700807049514_1_alg».proof.Proof.Gen.ReferenceIdeal.Run
import proofs.«413470_j1700807049514_1_alg».proof.Proof.Gen.ReferenceIdeal.Read
import proofs.«413470_j1700807049514_1_alg».proof.Proof.Gen.Pre_finite_inputs
import proofs.«413470_j1700807049514_1_alg».proof.Proof.KernelRun
import proofs.«413470_j1700807049514_1_alg».proof.Proof.KernelHost
import proofs.«413470_j1700807049514_1_alg».proof.Proof.RefValue
import proofs.«413470_j1700807049514_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the six arguments and satisfy the precondition, end with the
    result array at `fused` of the arguments: the kernel by its run and its value (Proof/KernelRun.lean,
    Proof/KernelHost.lean), the reference by its generated run and Proof/RefValue.lean, the class and stage words in range by
    the precondition's integer conjuncts (Proof/PreDecode.lean). -/
theorem algebraic : Cert.algebraic_KernelIdeal_ReferenceIdeal := by
  intro m ρ m' ρ' hpre hagree
  have hrange : ∀ c : Dev Cert.KernelIdeal.nD,
      Cert.Spec.InRange (Cert.KernelIdeal.HostSide.classIds m c) (Cert.KernelIdeal.HostSide.stages m c) :=
    fun c => Cert.PreDecode.inRange_of_pre _ _ _ _ _ _ (hpre c)
  refine ⟨fun c => Cert.Spec.fused (Cert.KernelIdeal.HostSide.feat m c) (Cert.KernelIdeal.HostSide.classIds m c)
    (Cert.KernelIdeal.HostSide.stages m c) (Cert.KernelIdeal.HostSide.protos m c) (Cert.KernelIdeal.HostSide.counts m c)
    (Cert.KernelIdeal.HostSide.shared m c), ?_, ?_⟩
  · exact (θ_run Cert.KernelIdeal.defs _ _).mono
      (fun r h c => ⟨(h c).1.trans (Cert.KernelIdeal.HostSide.result_eq m ρ c (hrange c)), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.result_eq _ _ _ _ _ _ (hrange c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
